-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S_ : Shape := ⟨0, ![]⟩
abbrev S4x4096 : Shape := ⟨2, ![4, 4096]⟩
abbrev S1x512x3 : Shape := ⟨3, ![1, 512, 3]⟩
abbrev S1x4096x3 : Shape := ⟨3, ![1, 4096, 3]⟩
abbrev S512x3 : Shape := ⟨2, ![512, 3]⟩
abbrev S4096x3 : Shape := ⟨2, ![4096, 3]⟩
abbrev S1x512 : Shape := ⟨2, ![1, 512]⟩
abbrev S512 : Shape := ⟨1, ![512]⟩
abbrev S1x4096 : Shape := ⟨2, ![1, 4096]⟩
abbrev S4096 : Shape := ⟨1, ![4096]⟩
abbrev S512x4096 : Shape := ⟨2, ![512, 4096]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096x3, .f32⟩
  | .hbm, ⟨10, _⟩ => ⟨S4x4096x3, .f32⟩
  | .hbm, ⟨11, _⟩ => ⟨S4x4096, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S4x4096, .f32⟩
  | .local _ .vmem, ⟨5, _⟩ => ⟨S4x4096, .f32⟩
  | .local _ .vmem, ⟨6, _⟩ => ⟨S4x4096, .f32⟩
  | .local _ .vmem, ⟨7, _⟩ => ⟨S4x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_cst_1 : Ref sig .tc := ⟨.hbm, 8, rfl⟩
abbrev main_call0_v4 : Ref sig .tc := ⟨.hbm, 9, rfl⟩
abbrev main_call0_v5 : Ref sig .tc := ⟨.hbm, 10, rfl⟩
abbrev main_v0_0 : Ref sig .tc := ⟨.hbm, 11, rfl⟩
abbrev main_call0_v6_1 : Ref sig .tc := ⟨.hbm, 12, rfl⟩
abbrev main_call0_cst_2 : Ref sig .tc := ⟨.hbm, 13, rfl⟩
abbrev main_call0_v7 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg0 : BitVec 32 := BitVec.ofNat 32 (i 0).val
  let v5 : Index := Scalar.indexCast arg0
  let arg1 : BitVec 32 := BitVec.ofNat 32 (i 1).val
  let c512_i32 : BitVec 32 := 512#32
  let v4 : BitVec 32 := Scalar.muli arg1 c512_i32
  let v6 : Index := Scalar.indexCast v4
  ![v5.toNat, v6.toNat]
def k0_off2 (i : grid0.Coords) : Fin 2 → Nat :=
  let arg0 : BitVec 32 := BitVec.ofNat 32 (i 0).val
  let v9 : Index := Scalar.indexCast arg0
  let c0_5 : Index := 0#32
  ![v9.toNat, 0]
def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_10 : BitVec 32 := 0#32
  let v32 : BitVec 1 := Scalar.cmpi .ne v31 c0_i32_10
  v32

def k0_off3 (i : grid0.Coords) : Fin 2 → Nat :=
  let arg0 : BitVec 32 := BitVec.ofNat 32 (i 0).val
  let v36 : Index := Scalar.indexCast arg0
  let c0_13 : Index := 0#32
  ![v36.toNat, 0]
def k0_cond2 (i : grid0.Coords) : BitVec 1 :=
  let arg1 : BitVec 32 := BitVec.ofNat 32 (i 1).val
  let c0_i32_11 : BitVec 32 := 0#32
  let v33 : BitVec 1 := Scalar.cmpi .ne arg1 c0_i32_11
  let v34 : BitVec 32 := Scalar.extui v33
  let c0_i32_12 : BitVec 32 := 0#32
  let v35 : BitVec 1 := Scalar.cmpi .ne v34 c0_i32_12
  v35

def k0_off4 (i : grid0.Coords) : Fin 2 → Nat :=
  let arg0 : BitVec 32 := BitVec.ofNat 32 (i 0).val
  let v36 : Index := Scalar.indexCast arg0
  let c0_13 : Index := 0#32
  ![v36.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  reducesTo_S4x4096x3_S4x4096_d2 : S4x4096x3.ReducesTo [2] S4x4096
  h_S_ : 0 < S_.numel
  bcast_S_S4x4096x3 : S_.BroadcastsInDim S4x4096x3 (![] : Fin 0 → Fin S4x4096x3.rank)
  bcast_S_S4x4096 : S_.BroadcastsInDim S4x4096 (![] : Fin 0 → Fin S4x4096.rank)
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  h_S1x512 : 0 < S1x512.numel
  shapeCasts_S1x512_S512 : S1x512.ShapeCasts S512
  h_S1x4096 : 0 < S1x4096.numel
  shapeCasts_S1x4096_S4096 : S1x4096.ShapeCasts S4096
  shapeCasts_S4096_S1x4096 : S4096.ShapeCasts S1x4096
  broadcasts_S1x4096_S512x4096 : S1x4096.Broadcasts S512x4096
  reduces_S512x4096_S512 : S512x4096.Reduces [1] S512
  shapeCasts_S512_S1x512 : S512.ShapeCasts S1x512
  shapeCasts_S512_S512x1 : S512.ShapeCasts S512x1
  broadcasts_S512x1_S512x4096 : S512x1.Broadcasts S512x4096
  reduces_S512x4096_S4096 : S512x4096.Reduces [0] S4096
  shapeCasts_S1x4096_S1x4096 : S1x4096.ShapeCasts S1x4096
  dot_S512x3_S4096x3_S512x4096_1_1_0_0_n_n_wf : DotDims.WF S512x3 S4096x3 S512x4096 [1] [1] [0] [0] [] []
  hrank0 : 0 < grid0.rank
  k0_off1_inb : ∀ i : grid0.Coords, ∀ a, (k0_off1 i) a + S1x512.size a ≤ S4x4096.size a
  k0_off2_inb : ∀ i : grid0.Coords, ∀ a, (k0_off2 i) a + S1x4096.size a ≤ S4x4096.size a
  k0_off3_inb : ∀ i : grid0.Coords, ∀ (k0_h1 : k0_cond1 i = 1#1), ∀ a, (k0_off3 i) a + S1x4096.size a ≤ S4x4096.size a
  k0_off4_inb : ∀ i : grid0.Coords, ∀ (k0_h2 : k0_cond2 i = 1#1), ∀ a, (k0_off4 i) a + S1x4096.size a ≤ S4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4096.size a ≤ S4x4096.size a
  hwx0_4 : ∀ i : grid0.Coords, EltTy.bits .f32 = 32 ∨ (Rect.block (s := S4x4096) S4x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x4096.size a ≤ S4x4096.size a
  hwx0_5 : ∀ i : grid0.Coords, EltTy.bits .f32 = 32 ∨ (Rect.block (s := S4x4096) S4x4096.size (cc0_transform_5 i) (hinb0_5 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S4x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4x4096.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6_1) S4x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x3x4096 : Shape := ⟨3, ![4, 3, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x3x4096, .f32⟩
  | .hbm, ⟨9, _⟩ => ⟨S4x4096x4096, .f32⟩
  | .hbm, ⟨10, _⟩ => ⟨S4x4096x1, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  transposes_S4x4096x3_S4x3x4096_0_2_1 : S4x4096x3.Transposes [0, 2, 1] S4x3x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  dot_S4x4096x3_S4x3x4096_S4x4096x4096_2_1_1_2_0_0_wf : DotDims.WF S4x4096x3 S4x3x4096 S4x4096x4096 [2] [1] [1] [2] [0] [0]

variable [Facts₀]

def dot_S4x4096x3_S4x3x4096_S4x4096x4096_2_1_1_2_0_0 : DotDims S4x4096x3 S4x3x4096 S4x4096x4096 where
  lhsContracting := [2]
  rhsContracting := [1]
  lhsNonContracting := [1]
  rhsNonContracting := [2]
  lhsBatch := [0]
  rhsBatch := [0]
  wf := dot_S4x4096x3_S4x3x4096_S4x4096x4096_2_1_1_2_0_0_wf

class Facts : Prop extends Facts₀ where

variable [Facts]
-- ==== Proof.K.Run.lean ====
/-
  The kernel body as a Hoare triple, once per control case.

  At a grid point (b, i) the body loads a 512-row tile of the first cloud, the whole (pre-scaled) second cloud of batch b,
  the tile's squared norms and the second cloud's squared norms, and stores a 1 x 512 strip of the first result and one
  row of the second. At i = 0 that row is the tile's column minima; at i > 0 it is the minimum of what the row held and
  the tile's column minima. Each triple is stated over arbitrary whole staging buffers at arbitrary contents: the
  inputs come back as they were, each output buffer comes back as what it held with one rectangle overwritten (the
  piece lists, which the symbolic run finds).
-/
import proofs.«154753_g1726576856987_cont_8to1_201_24_alg».proof.Proof.Gen.Kernel.Frame
import proofs.«154753_g1726576856987_cont_8to1_201_24_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the first tile of a batch (i = 0): the strip of the first result is stored, and the row of the second result is overwritten with the tile's column minima. -/
noncomputable def kernelRunA (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (L4 : List (View.Piece (Elt F) S4x4096 .f32)) ×' (L5 : List (View.Piece (Elt F) S4x4096 .f32)) ×'
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo4 ∗ owns (c : Thread nD τ) a7 fullShare xo5
            ∗ (iprop(owns (c : Thread nD τ) a2 fullShare x0 ∗ owns (c : Thread nD τ) a3 fullShare x1 ∗ owns (c : Thread nD τ) a4 fullShare x2
                ∗ owns (c : Thread nD τ) a5 fullShare x3
                ∗ (a6.view.loc (c : Thread nD τ) ↦[a6.view.set]{fullShare} a6.view.writes (Elt F) (h6.unread xo4) L4)
                ∗ (a7.view.loc (c : Thread nD τ) ↦[a7.view.set]{fullShare} a7.view.writes (Elt F) (h7.unread xo5) L5)) -∗ K ⟨⟩))
          ⊢ wp frame (wpE (defs₀ (F := F)) Variants.none c none) E (cc0__chamfer_kernel i a2 h2 a3 h3 a4 h4 a5 h5 a6 h6 a7 h7) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexact H4
    iexact H5

set_option maxHeartbeats 1000000 in
/-- The body at a later tile of a batch (i > 0): the strip of the first result is stored, and the row of the second result becomes its minimum with the tile's column minima. -/
noncomputable def kernelRunB (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (L4 : List (View.Piece (Elt F) S4x4096 .f32)) ×' (L5 : List (View.Piece (Elt F) S4x4096 .f32)) ×'
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo4 ∗ owns (c : Thread nD τ) a7 fullShare xo5
            ∗ (iprop(owns (c : Thread nD τ) a2 fullShare x0 ∗ owns (c : Thread nD τ) a3 fullShare x1 ∗ owns (c : Thread nD τ) a4 fullShare x2
                ∗ owns (c : Thread nD τ) a5 fullShare x3
                ∗ (a6.view.loc (c : Thread nD τ) ↦[a6.view.set]{fullShare} a6.view.writes (Elt F) (h6.unread xo4) L4)
                ∗ (a7.view.loc (c : Thread nD τ) ↦[a7.view.set]{fullShare} a7.view.writes (Elt F) (h7.unread xo5) L5)) -∗ K ⟨⟩))
          ⊢ wp frame (wpE (defs₀ (F := F)) Variants.none c none) E (cc0__chamfer_kernel i a2 h2 a3 h3 a4 h4 a5 h5 a6 h6 a7 h7) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexact H4
    iexact H5

end Cert.Kernel.Body

end
-- ==== Proof.K.Data.lean ====
/-
  The proof data of the pipelined region, stated relationally.

  Both results are whole-array windows that stay resident over all 32 grid points and are written back once, after the
  last point; each point overwrites only a part (a 1 x 512 strip of the first result; one row of the second). What a
  buffer holds after a point therefore depends on what it held before, and at the first points that is unknown. So the
  data do not NAME the buffers' contents: they say how a point transforms them (`nxt4`, `nxt5`), and that the body leaves
  the four inputs as it found them. The functions the two result arrays provably end at (`E4`, `E5`) are defined here
  too, over the region-entry contents of the windows' arrays: `E4` entry by entry from the point that writes it, `E5`
  row by row as the running minimum over the batch's eight tiles.
-/
import proofs.«154753_g1726576856987_cont_8to1_201_24_alg».proof.Proof.K.Run
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The staging buffers the pipeline passes the body at a point -/

abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x4096 .f32 := win0_5.stage (cfg0.slots t 5)
abbrev hs5 (t : Fin cfg0.N) : (ms5 t).IsWhole := hstage0_5 ((cfg0.slots t 5).cast nbuf0_5)

/-! ## The rectangles the body reads and writes at grid coordinates `i = (b, k)` -/

/-- The whole tile of the first cloud, and the whole second cloud of the batch. -/
abbrev R0 : Rect S1x512x3 := Rect.unit (s := S1x512x3) ![0, 0, 0] S1x512x3.size inb_S1x512x3_S1x512x3_0_0_0
abbrev R1 : Rect S1x4096x3 := Rect.unit (s := S1x4096x3) ![0, 0, 0] S1x4096x3.size inb_S1x4096x3_S1x4096x3_0_0_0
/-- Row `b`, columns `[512 k, 512 k + 512)`: the tile's squared norms, and the strip of the first result. -/
abbrev Ra (i : grid0.Coords) : Rect S4x4096 := Rect.unit (s := S4x4096) (k0_off1 i) S1x512.size (k0_off1_inb i)
/-- Row `b`, whole: the second cloud's squared norms. -/
abbrev Rc (i : grid0.Coords) : Rect S4x4096 := Rect.unit (s := S4x4096) (k0_off2 i) S1x4096.size (k0_off2_inb i)
/-- Row `b` of the second result, as the first tile of a batch stores it, -/
abbrev R3 (i : grid0.Coords) (h : k0_cond1 i = 1#1) : Rect S4x4096 := Rect.unit (s := S4x4096) (k0_off3 i) S1x4096.size (k0_off3_inb i h)
/-- and as a later tile reads and stores it. -/
abbrev R4 (i : grid0.Coords) (h : k0_cond2 i = 1#1) : Rect S4x4096 := Rect.unit (s := S4x4096) (k0_off4 i) S1x4096.size (k0_off4_inb i h)

/-! ## What the body stores, as functions of what its buffers held -/

/-- The strip of the first result: per row of the tile, the clamped minimum over the second cloud. -/
def strip (i : grid0.Coords) (x0 : Vec F S1x512x3 .f32) (x1 : Vec F S1x4096x3 .f32) (x2 x3 : Vec F S4x4096 .f32) : FVec F S1x512 .f32 :=
  k0_pay3 (View.ld x0 R0) (View.ld x1 R1) (View.ld x2 (Ra i)) (View.ld x3 (Rc i))
/-- The tile's column minima: per point of the second cloud, the minimum over the tile's rows. -/
def colmin (i : grid0.Coords) (x0 : Vec F S1x512x3 .f32) (x1 : Vec F S1x4096x3 .f32) (x2 x3 : Vec F S4x4096 .f32) : FVec F S1x4096 .f32 :=
  k0_pay4 (View.ld x0 R0) (View.ld x1 R1) (View.ld x2 (Ra i)) (View.ld x3 (Rc i))
/-- The minimum of a row `r` and the tile's column minima. -/
def colminWith (i : grid0.Coords) (x0 : Vec F S1x512x3 .f32) (x1 : Vec F S1x4096x3 .f32) (x2 x3 : Vec F S4x4096 .f32)
    (r : Vec F S1x4096 .f32) : FVec F S1x4096 .f32 :=
  k0_pay5 (View.ld x0 R0) (View.ld x1 R1) (View.ld x2 (Ra i)) (View.ld x3 (Rc i)) r

/-! ## The windows' blocks at a point, at their literal types -/

abbrev x0 (c : Dev nD) (t : Fin cfg0.N) : Vec F S1x512x3 .f32 := iblk m c 0 t
abbrev x1 (c : Dev nD) (t : Fin cfg0.N) : Vec F S1x4096x3 .f32 := iblk m c 1 t
abbrev x2 (c : Dev nD) (t : Fin cfg0.N) : Vec F S4x4096 .f32 := iblk m c 2 t
abbrev x3 (c : Dev nD) (t : Fin cfg0.N) : Vec F S4x4096 .f32 := iblk m c 3 t

/-! ## How a point transforms the two result buffers -/

/-- The first result's buffer after point `t`, from what it held: the strip overwritten. -/
def nxt4 (c : Dev nD) (t : Fin cfg0.N) (Y : Vec F S4x4096 .f32) : Vec F S4x4096 .f32 :=
  (ms4 t).view.read (Elt F) ((ms4 t).view.writes (Elt F) ((hs4 t).unread Y)
    [⟨Ra (grid0.coords t), strip (grid0.coords t) (x0 m c t) (x1 m c t) (x2 m c t) (x3 m c t)⟩])

/-- The second result's buffer after point `t`, from what it held: row `b` overwritten with the tile's column minima at
    the batch's first tile, with its minimum with them at a later tile. -/
def nxt5 (c : Dev nD) (t : Fin cfg0.N) (Y : Vec F S4x4096 .f32) : Vec F S4x4096 .f32 :=
  if h1 : k0_cond1 (grid0.coords t) = 1#1 then
    (ms5 t).view.read (Elt F) ((ms5 t).view.writes (Elt F) ((hs5 t).unread Y)
      [⟨R3 (grid0.coords t) h1, colmin (grid0.coords t) (x0 m c t) (x1 m c t) (x2 m c t) (x3 m c t)⟩])
  else if h2 : k0_cond2 (grid0.coords t) = 1#1 then
    (ms5 t).view.read (Elt F) ((ms5 t).view.writes (Elt F) ((hs5 t).unread Y)
      [⟨R4 (grid0.coords t) h2, colminWith (grid0.coords t) (x0 m c t) (x1 m c t) (x2 m c t) (x3 m c t) (View.ld Y (R4 (grid0.coords t) h2))⟩])
  else Y

/-! ## The proof data -/

/-- On core `c`: the arrays at their region-entry contents; the body leaves each input buffer as it found it and
    transforms the two result buffers by `nxt4` and `nxt5`; the class invariant; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = nxt4 m c t Y
    | ⟨5, _⟩ => fun Y X => X = nxt5 m c t Y
    | ⟨n + 6, h⟩ => absurd h (Nat.not_lt.2 (Nat.le_add_left _ _))
  Φ _ := Pipeline.ΦA spec0 c
  q _ := fullShare
  owed _ := 0

/-! ## The grid, decided -/

/-- A point's coordinates are its quotient and remainder by the eight tiles of a batch. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
/-- The first branch is taken at a batch's first tile, the second at the others. -/
theorem cond1_iff : ∀ i : grid0.Coords, k0_cond1 i = 1#1 ↔ (i 1).val = 0 := by decide +kernel
theorem cond2_iff : ∀ i : grid0.Coords, k0_cond2 i = 1#1 ↔ (i 1).val ≠ 0 := by decide +kernel

/-! ## What the two result arrays end at -/

/-- The grid point of batch `b`, tile `k`. -/
def pt (b k : ℕ) (hb : b < 4) (hk : k < 8) : Fin cfg0.N := ⟨8 * b + k, by
  have : cfg0.N = 32 := N_0
  omega⟩

/-- The first result: entry `(b, n)` is entry `n % 512` of the strip stored at batch `b`, tile `n / 512`. -/
def E4 (c : Dev nD) : Vec F S4x4096 .f32 := fun y =>
  let t := pt (y 0).val ((y 1).val / 512) (show (y 0).val < 4 from (y 0).isLt) (by have h : (y 1).val < 4096 := (y 1).isLt; omega)
  strip (grid0.coords t) (x0 m c t) (x1 m c t) (x2 m c t) (x3 m c t)
    (ValueIdx.ix2 (⟨0, Nat.one_pos⟩ : Fin 1) (⟨(y 1).val % 512, Nat.mod_lt _ (by decide)⟩ : Fin 512))

/-- Row `b` of the second result after the batch's tile `k`: the first tile's column minima, then the running minimum
    with each later tile's. -/
def acc5 (c : Dev nD) (b : ℕ) (hb : b < 4) : (k : ℕ) → k < 8 → FVec F S1x4096 .f32
  | 0, hk => let t := pt b 0 hb hk; colmin (grid0.coords t) (x0 m c t) (x1 m c t) (x2 m c t) (x3 m c t)
  | k + 1, hk => let t := pt b (k + 1) hb hk
    colminWith (grid0.coords t) (x0 m c t) (x1 m c t) (x2 m c t) (x3 m c t) (acc5 c b hb k (by omega))

/-- The second result (before the host's clamp): row `b` is the running minimum after the batch's last tile. -/
def E5 (c : Dev nD) : Vec F S4x4096 .f32 := fun y =>
  acc5 m c (y 0).val (show (y 0).val < 4 from (y 0).isLt) 7 (by decide) (ValueIdx.ix2 (⟨0, Nat.one_pos⟩ : Fin 1) (⟨(y 1).val, (show (y 1).val < 4096 from (y 1).isLt)⟩ : Fin 4096))

end Cert.Kernel.Body

end
-- ==== Proof.K.Body.lean ====
/-
  The body obligation of the relational proof data: at every grid point, from each window's buffer at contents it may
  hold there, the kernel body runs and leaves every buffer in the data's relation to what it found.
-/
import proofs.«154753_g1726576856987_cont_8to1_201_24_alg».proof.Proof.K.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- An input window's buffer holds the window's block of its array whenever the body is handed it. -/
theorem finds_in0 (c : Dev nD) (t : Fin cfg0.N) (Y) (h : (rdat m c).Finds 0 t Y) : Y = x0 m c t := by
  obtain ⟨d, hd⟩ := (rdat m c).finds_in_eq_fetched 0 rfl (fun _ _ _ => rfl)
    (fun t Y X h => by dsimp only [rdat] at h; exact h) t Y h
  rw [hd]
  unfold RDat.fetched RDat.blockOf x0 iblk
  dsimp only [rdat]
  rfl
theorem finds_in1 (c : Dev nD) (t : Fin cfg0.N) (Y) (h : (rdat m c).Finds 1 t Y) : Y = x1 m c t := by
  obtain ⟨d, hd⟩ := (rdat m c).finds_in_eq_fetched 1 rfl (fun _ _ _ => rfl)
    (fun t Y X h => by dsimp only [rdat] at h; exact h) t Y h
  rw [hd]
  unfold RDat.fetched RDat.blockOf x1 iblk
  dsimp only [rdat]
  rfl
theorem finds_in2 (c : Dev nD) (t : Fin cfg0.N) (Y) (h : (rdat m c).Finds 2 t Y) : Y = x2 m c t := by
  obtain ⟨d, hd⟩ := (rdat m c).finds_in_eq_fetched 2 rfl (fun _ _ _ => rfl)
    (fun t Y X h => by dsimp only [rdat] at h; exact h) t Y h
  rw [hd]
  unfold RDat.fetched RDat.blockOf x2 iblk
  dsimp only [rdat]
  rfl
theorem finds_in3 (c : Dev nD) (t : Fin cfg0.N) (Y) (h : (rdat m c).Finds 3 t Y) : Y = x3 m c t := by
  obtain ⟨d, hd⟩ := (rdat m c).finds_in_eq_fetched 3 rfl (fun _ _ _ => rfl)
    (fun t Y X h => by dsimp only [rdat] at h; exact h) t Y h
  rw [hd]
  unfold RDat.fetched RDat.blockOf x3 iblk
  dsimp only [rdat]
  rfl

/-! ## What the two runs store -/

/-- At a batch's first tile the first result's buffer receives the strip, -/
theorem runA_L4 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (kernelRunA c i a2 h2 a3 h3 a4 h4 a5 h5 a6 h6 a7 h7 hc1 hc2 x0 x1 x2 x3 xo4 xo5).1
      = [⟨Ra i, strip i x0 x1 x2 x3⟩] := by
  unfold kernelRunA; dsimp only
  simp only [View.readAt_eq_ld, Memref.IsWhole.read_unread]
  rfl

/-- and the second result's buffer the tile's column minima, in row `b`. -/
theorem runA_L5 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (kernelRunA c i a2 h2 a3 h3 a4 h4 a5 h5 a6 h6 a7 h7 hc1 hc2 x0 x1 x2 x3 xo4 xo5).2.1
      = [⟨R3 i hc1, colmin i x0 x1 x2 x3⟩] := by
  unfold kernelRunA; dsimp only
  simp only [View.readAt_eq_ld, Memref.IsWhole.read_unread]
  rfl

/-- At a later tile the first result's buffer receives the strip, -/
theorem runB_L4 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (kernelRunB c i a2 h2 a3 h3 a4 h4 a5 h5 a6 h6 a7 h7 hc1 hc2 x0 x1 x2 x3 xo4 xo5).1
      = [⟨Ra i, strip i x0 x1 x2 x3⟩] := by
  unfold kernelRunB; dsimp only
  simp only [View.readAt_eq_ld, Memref.IsWhole.read_unread]
  rfl

/-- and row `b` of the second result's buffer its minimum with the tile's column minima. -/
theorem runB_L5 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (kernelRunB c i a2 h2 a3 h3 a4 h4 a5 h5 a6 h6 a7 h7 hc1 hc2 x0 x1 x2 x3 xo4 xo5).2.1
      = [⟨R4 i hc2, colminWith i x0 x1 x2 x3 (View.ld xo5 (R4 i hc2))⟩] := by
  unfold kernelRunB; dsimp only
  simp only [View.readAt_eq_ld, Memref.IsWhole.read_unread]
  rfl

/-! ## The proof data's relations, window by window -/

theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = nxt4 m c t Y) := by dsimp only [rdat]
theorem after_5 (c : Dev nD) (t : Fin cfg0.N) (Y X) : (rdat m c).after 5 t Y X = (X = nxt5 m c t Y) := by dsimp only [rdat]

/-! ## The body at a generic point -/

set_option maxHeartbeats 800000 in
/-- The body at any point, handed the four input blocks and the two result buffers at arbitrary contents: the
    grid coordinate decides which of the two runs applies (a batch's first tile, or a later one); the inputs come back
    as they were, the result buffers transformed as the proof data say; the invariant and the (empty) debt pass
    through unread. -/
theorem sound_body (c : Dev nD) (t : Fin cfg0.N) (Y4 Y5 : Vec F S4x4096 .f32) :
    iprop((rdat m c).Φ t.castSucc ∗ (rdat m c).owesAt () t.castSucc
        ∗ owns (c : Thread nD τ) (ms0 t) fullShare (x0 m c t) ∗ owns (c : Thread nD τ) (ms1 t) fullShare (x1 m c t)
        ∗ owns (c : Thread nD τ) (ms2 t) fullShare (x2 m c t) ∗ owns (c : Thread nD τ) (ms3 t) fullShare (x3 m c t)
        ∗ owns (c : Thread nD τ) (ms4 t) fullShare Y4 ∗ owns (c : Thread nD τ) (ms5 t) fullShare Y5)
      ⊢ wp frame (wpE (defs₀ (F := F)) Variants.none c none) Set.univ (bodyAt0 t) fun _ =>
        iprop((rdat m c).Φ t.succ ∗ (rdat m c).owesAt () t.succ
          ∗ (∃ X, ⌜(rdat m c).after 0 t (x0 m c t) X⌝ ∗ owns (c : Thread nD τ) (ms0 t) fullShare X)
          ∗ (∃ X, ⌜(rdat m c).after 1 t (x1 m c t) X⌝ ∗ owns (c : Thread nD τ) (ms1 t) fullShare X)
          ∗ (∃ X, ⌜(rdat m c).after 2 t (x2 m c t) X⌝ ∗ owns (c : Thread nD τ) (ms2 t) fullShare X)
          ∗ (∃ X, ⌜(rdat m c).after 3 t (x3 m c t) X⌝ ∗ owns (c : Thread nD τ) (ms3 t) fullShare X)
          ∗ (∃ X, ⌜(rdat m c).after 4 t Y4 X⌝ ∗ owns (c : Thread nD τ) (ms4 t) fullShare X)
          ∗ (∃ X, ⌜(rdat m c).after 5 t Y5 X⌝ ∗ owns (c : Thread nD τ) (ms5 t) fullShare X)) := by
  rw [show (rdat m c).Φ t.succ = (rdat m c).Φ t.castSucc from rfl,
    show (rdat m c).owesAt () t.succ = (rdat m c).owesAt () t.castSucc from rfl]
  simp only [after_0, after_1, after_2, after_3, after_4, after_5]
  unfold bodyAt0
  by_cases h1 : k0_cond1 (grid0.coords t) = 1#1
  · have h2 : ¬ k0_cond2 (grid0.coords t) = 1#1 := fun h => (cond2_iff _).mp h ((cond1_iff _).mp h1)
    iintro ⟨HΦ, Ho, H0, H1, H2, H3, H4, H5⟩
    iapply ((kernelRunA c (grid0.coords t) (ms0 t) (hs0 t) (ms1 t) (hs1 t) (ms2 t) (hs2 t) (ms3 t) (hs3 t) (ms4 t) (hs4 t) (ms5 t) (hs5 t)
      h1 h2 (x0 m c t) (x1 m c t) (x2 m c t) (x3 m c t) Y4 Y5).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists nxt4 m c t Y4; isplitr; · ipureintro; rfl
      unfold owns; iexists _; isplitr; swap; · iexact H4
      ipureintro; rw [runA_L4]; rfl
    · iexists nxt5 m c t Y5; isplitr; · ipureintro; rfl
      unfold owns; iexists _; isplitr; swap; · iexact H5
      ipureintro; rw [runA_L5]; unfold nxt5; rw [dif_pos h1]
  · have h2 : k0_cond2 (grid0.coords t) = 1#1 := (cond2_iff _).mpr fun h => h1 ((cond1_iff _).mpr h)
    iintro ⟨HΦ, Ho, H0, H1, H2, H3, H4, H5⟩
    iapply ((kernelRunB c (grid0.coords t) (ms0 t) (hs0 t) (ms1 t) (hs1 t) (ms2 t) (hs2 t) (ms3 t) (hs3 t) (ms4 t) (hs4 t) (ms5 t) (hs5 t)
      h1 h2 (x0 m c t) (x1 m c t) (x2 m c t) (x3 m c t) Y4 Y5).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists nxt4 m c t Y4; isplitr; · ipureintro; rfl
      unfold owns; iexists _; isplitr; swap; · iexact H4
      ipureintro; rw [runB_L4]; rfl
    · iexists nxt5 m c t Y5; isplitr; · ipureintro; rfl
      unfold owns; iexists _; isplitr; swap; · iexact H5
      ipureintro; rw [runB_L5]; unfold nxt5; rw [dif_neg h1, dif_pos h2]

/-- The body obligation, on every core. -/
theorem body_obligation (c : Dev nD) : (rdat m c).BodyObligation (defs₀ (F := F)) Variants.none () Set.univ := by
  intro t Y hY
  rw [Gen.bigSep_W0, Gen.bigSep_W0]
  rw [finds_in0 m c t (Y 0) (hY 0), finds_in1 m c t (Y 1) (hY 1), finds_in2 m c t (Y 2) (hY 2), finds_in3 m c t (Y 3) (hY 3)]
  exact sound_body m c t (Y 4) (Y 5)

end Cert.Kernel.Body

end
-- ==== Proof.K.FrameRun.lean ====
/-
  The frame: every weakly fair execution of @main terminates without a fault and leaves both argument arrays as they
  were. The first argument is an input window's array, which the pipeline never writes; the second bypasses the region
  and is written by no host operation.
-/
import proofs.«154753_g1726576856987_cont_8to1_201_24_alg».proof.Proof.K.Body

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host operations after the region write: the clamp's zero, its broadcast, and the clamped second
    result. -/
abbrev sfxT : Finset (Ref sig .tc) := {main_call0_cst_2, main_call0_v7, main_v0_1}

/-- Each host operation after the region writes its own result buffer only, one of the three above. -/
theorem sfx_writes : ∀ ops ∈ ([hostOps1] : List (List (HloOp τ sig (Elt F)))), ∀ op ∈ ops,
    ∀ b : Ref sig .tc, Proc.devRef .tc b ∈ op.writes → b ∈ sfxT := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.nullary_writes, StableHlo.unary_writes, StableHlo.binary_writes, Finset.mem_singleton] at hb
    obtain rfl := Proc.devRef_injective (τ := τ) _ hb
    decide

/-- Every window's share is the full share: an output's by definition, an input's by the data. -/
theorem rdat_share (c : Dev nD) (w : Fin cfg0.W) : (rdat m c).share w = fullShare := by
  unfold RDat.share; split <;> rfl

/-- The frame run of the relational data: the arrays at contents they may hold after every write-back, every bypassing
    buffer the later host operations do not write as the region found it. -/
theorem frame_runR :
    θ_run defs (onTc (τ := τ) (main (F := F))) (s₀ m ρ)
      (RDat.FramePostR cfg0 (fun c => rdat m c) sfxT (fun c b => Gen.V0 m c (Proc.devRef .tc b))) :=
  Pipeline.RDat.θ_run_frame_around_T cfgs 0 launch0 defs₀ Variants.none (fun c => rdat m c) sfxT m ρ main
    (fun c => body_obligation m c) (fun c w => rdat_share m c w) (fun _ _ => rfl)
    (Gen.V0 m) [hostOps1] Gen.sfx_sub Gen.sfx_fresh Gen.sfx_keeps sfx_writes (Gen.hmain m Variants.none)
    (fun _ _ => rfl) (fun _ _ => rfl)

theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(RDat.FramePostR.arr_in h c 0 rfl).trans (Gen.V_main_arg0 m c),
     ((h c).2 main_arg1 (Finset.mem_sdiff.mpr ⟨Pipeline.mem_restRefs_of main_arg1 (by decide) (by decide), by decide⟩)).trans
       (Gen.V_main_arg1 m c)⟩) (frame_runR m ρ)

end Cert.Kernel.Body

end
-- ==== Proof.KI.Run.lean ====
/-
  The kernel body as a Hoare triple, once per control case.

  At a grid point (b, i) the body loads a 512-row tile of the first cloud, the whole (pre-scaled) second cloud of batch b,
  the tile's squared norms and the second cloud's squared norms, and stores a 1 x 512 strip of the first result and one
  row of the second. At i = 0 that row is the tile's column minima; at i > 0 it is the minimum of what the row held and
  the tile's column minima. Each triple is stated over arbitrary whole staging buffers at arbitrary contents: the
  inputs come back as they were, each output buffer comes back as what it held with one rectangle overwritten (the
  piece lists, which the symbolic run finds).
-/
import proofs.«154753_g1726576856987_cont_8to1_201_24_alg».proof.Proof.Gen.KernelIdeal.Frame
import proofs.«154753_g1726576856987_cont_8to1_201_24_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first tile of a batch (i = 0): the strip of the first result is stored, and the row of the second result is overwritten with the tile's column minima. -/
noncomputable def kernelRunA (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (L4 : List (View.Piece (Elt F) S4x4096 .f32)) ×' (L5 : List (View.Piece (Elt F) S4x4096 .f32)) ×'
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo4 ∗ owns (c : Thread nD τ) a7 fullShare xo5
            ∗ (iprop(owns (c : Thread nD τ) a2 fullShare x0 ∗ owns (c : Thread nD τ) a3 fullShare x1 ∗ owns (c : Thread nD τ) a4 fullShare x2
                ∗ owns (c : Thread nD τ) a5 fullShare x3
                ∗ (a6.view.loc (c : Thread nD τ) ↦[a6.view.set]{fullShare} a6.view.writes (Elt F) (h6.unread xo4) L4)
                ∗ (a7.view.loc (c : Thread nD τ) ↦[a7.view.set]{fullShare} a7.view.writes (Elt F) (h7.unread xo5) L5)) -∗ K ⟨⟩))
          ⊢ wp frame (wpE (defs₀ (F := F)) Variants.none c none) E (cc0__chamfer_kernel i a2 h2 a3 h3 a4 h4 a5 h5 a6 h6 a7 h7) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexact H4
    iexact H5

set_option maxHeartbeats 1000000 in
/-- The body at a later tile of a batch (i > 0): the strip of the first result is stored, and the row of the second result becomes its minimum with the tile's column minima. -/
noncomputable def kernelRunB (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (L4 : List (View.Piece (Elt F) S4x4096 .f32)) ×' (L5 : List (View.Piece (Elt F) S4x4096 .f32)) ×'
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo4 ∗ owns (c : Thread nD τ) a7 fullShare xo5
            ∗ (iprop(owns (c : Thread nD τ) a2 fullShare x0 ∗ owns (c : Thread nD τ) a3 fullShare x1 ∗ owns (c : Thread nD τ) a4 fullShare x2
                ∗ owns (c : Thread nD τ) a5 fullShare x3
                ∗ (a6.view.loc (c : Thread nD τ) ↦[a6.view.set]{fullShare} a6.view.writes (Elt F) (h6.unread xo4) L4)
                ∗ (a7.view.loc (c : Thread nD τ) ↦[a7.view.set]{fullShare} a7.view.writes (Elt F) (h7.unread xo5) L5)) -∗ K ⟨⟩))
          ⊢ wp frame (wpE (defs₀ (F := F)) Variants.none c none) E (cc0__chamfer_kernel i a2 h2 a3 h3 a4 h4 a5 h5 a6 h6 a7 h7) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexact H4
    iexact H5

end Cert.KernelIdeal.Body

end
-- ==== Proof.KI.Data.lean ====
/-
  The proof data of the pipelined region, stated relationally.

  Both results are whole-array windows that stay resident over all 32 grid points and are written back once, after the
  last point; each point overwrites only a part (a 1 x 512 strip of the first result; one row of the second). What a
  buffer holds after a point therefore depends on what it held before, and at the first points that is unknown. So the
  data do not NAME the buffers' contents: they say how a point transforms them (`nxt4`, `nxt5`), and that the body leaves
  the four inputs as it found them. The functions the two result arrays provably end at (`E4`, `E5`) are defined here
  too, over the region-entry contents of the windows' arrays: `E4` entry by entry from the point that writes it, `E5`
  row by row as the running minimum over the batch's eight tiles.
-/
import proofs.«154753_g1726576856987_cont_8to1_201_24_alg».proof.Proof.KI.Run
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The staging buffers the pipeline passes the body at a point -/

abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x4096 .f32 := win0_5.stage (cfg0.slots t 5)
abbrev hs5 (t : Fin cfg0.N) : (ms5 t).IsWhole := hstage0_5 ((cfg0.slots t 5).cast nbuf0_5)

/-! ## The rectangles the body reads and writes at grid coordinates `i = (b, k)` -/

/-- The whole tile of the first cloud, and the whole second cloud of the batch. -/
abbrev R0 : Rect S1x512x3 := Rect.unit (s := S1x512x3) ![0, 0, 0] S1x512x3.size inb_S1x512x3_S1x512x3_0_0_0
abbrev R1 : Rect S1x4096x3 := Rect.unit (s := S1x4096x3) ![0, 0, 0] S1x4096x3.size inb_S1x4096x3_S1x4096x3_0_0_0
/-- Row `b`, columns `[512 k, 512 k + 512)`: the tile's squared norms, and the strip of the first result. -/
abbrev Ra (i : grid0.Coords) : Rect S4x4096 := Rect.unit (s := S4x4096) (k0_off1 i) S1x512.size (k0_off1_inb i)
/-- Row `b`, whole: the second cloud's squared norms. -/
abbrev Rc (i : grid0.Coords) : Rect S4x4096 := Rect.unit (s := S4x4096) (k0_off2 i) S1x4096.size (k0_off2_inb i)
/-- Row `b` of the second result, as the first tile of a batch stores it, -/
abbrev R3 (i : grid0.Coords) (h : k0_cond1 i = 1#1) : Rect S4x4096 := Rect.unit (s := S4x4096) (k0_off3 i) S1x4096.size (k0_off3_inb i h)
/-- and as a later tile reads and stores it. -/
abbrev R4 (i : grid0.Coords) (h : k0_cond2 i = 1#1) : Rect S4x4096 := Rect.unit (s := S4x4096) (k0_off4 i) S1x4096.size (k0_off4_inb i h)

/-! ## What the body stores, as functions of what its buffers held -/

/-- The strip of the first result: per row of the tile, the clamped minimum over the second cloud. -/
def strip (i : grid0.Coords) (x0 : Vec F S1x512x3 .f32) (x1 : Vec F S1x4096x3 .f32) (x2 x3 : Vec F S4x4096 .f32) : FVec F S1x512 .f32 :=
  k0_pay3 (View.ld x0 R0) (View.ld x1 R1) (View.ld x2 (Ra i)) (View.ld x3 (Rc i))
/-- The tile's column minima: per point of the second cloud, the minimum over the tile's rows. -/
def colmin (i : grid0.Coords) (x0 : Vec F S1x512x3 .f32) (x1 : Vec F S1x4096x3 .f32) (x2 x3 : Vec F S4x4096 .f32) : FVec F S1x4096 .f32 :=
  k0_pay4 (View.ld x0 R0) (View.ld x1 R1) (View.ld x2 (Ra i)) (View.ld x3 (Rc i))
/-- The minimum of a row `r` and the tile's column minima. -/
def colminWith (i : grid0.Coords) (x0 : Vec F S1x512x3 .f32) (x1 : Vec F S1x4096x3 .f32) (x2 x3 : Vec F S4x4096 .f32)
    (r : Vec F S1x4096 .f32) : FVec F S1x4096 .f32 :=
  k0_pay5 (View.ld x0 R0) (View.ld x1 R1) (View.ld x2 (Ra i)) (View.ld x3 (Rc i)) r

/-! ## The windows' blocks at a point, at their literal types -/

abbrev x0 (c : Dev nD) (t : Fin cfg0.N) : Vec F S1x512x3 .f32 := iblk m c 0 t
abbrev x1 (c : Dev nD) (t : Fin cfg0.N) : Vec F S1x4096x3 .f32 := iblk m c 1 t
abbrev x2 (c : Dev nD) (t : Fin cfg0.N) : Vec F S4x4096 .f32 := iblk m c 2 t
abbrev x3 (c : Dev nD) (t : Fin cfg0.N) : Vec F S4x4096 .f32 := iblk m c 3 t

/-! ## How a point transforms the two result buffers -/

/-- The first result's buffer after point `t`, from what it held: the strip overwritten. -/
def nxt4 (c : Dev nD) (t : Fin cfg0.N) (Y : Vec F S4x4096 .f32) : Vec F S4x4096 .f32 :=
  (ms4 t).view.read (Elt F) ((ms4 t).view.writes (Elt F) ((hs4 t).unread Y)
    [⟨Ra (grid0.coords t), strip (grid0.coords t) (x0 m c t) (x1 m c t) (x2 m c t) (x3 m c t)⟩])

/-- The second result's buffer after point `t`, from what it held: row `b` overwritten with the tile's column minima at
    the batch's first tile, with its minimum with them at a later tile. -/
def nxt5 (c : Dev nD) (t : Fin cfg0.N) (Y : Vec F S4x4096 .f32) : Vec F S4x4096 .f32 :=
  if h1 : k0_cond1 (grid0.coords t) = 1#1 then
    (ms5 t).view.read (Elt F) ((ms5 t).view.writes (Elt F) ((hs5 t).unread Y)
      [⟨R3 (grid0.coords t) h1, colmin (grid0.coords t) (x0 m c t) (x1 m c t) (x2 m c t) (x3 m c t)⟩])
  else if h2 : k0_cond2 (grid0.coords t) = 1#1 then
    (ms5 t).view.read (Elt F) ((ms5 t).view.writes (Elt F) ((hs5 t).unread Y)
      [⟨R4 (grid0.coords t) h2, colminWith (grid0.coords t) (x0 m c t) (x1 m c t) (x2 m c t) (x3 m c t) (View.ld Y (R4 (grid0.coords t) h2))⟩])
  else Y

/-! ## The proof data -/

/-- On core `c`: the arrays at their region-entry contents; the body leaves each input buffer as it found it and
    transforms the two result buffers by `nxt4` and `nxt5`; the class invariant; nothing owed; full shares. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = nxt4 m c t Y
    | ⟨5, _⟩ => fun Y X => X = nxt5 m c t Y
    | ⟨n + 6, h⟩ => absurd h (Nat.not_lt.2 (Nat.le_add_left _ _))
  Φ _ := Pipeline.ΦA spec0 c
  q _ := fullShare
  owed _ := 0

/-! ## The grid, decided -/

/-- A point's coordinates are its quotient and remainder by the eight tiles of a batch. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
/-- The first branch is taken at a batch's first tile, the second at the others. -/
theorem cond1_iff : ∀ i : grid0.Coords, k0_cond1 i = 1#1 ↔ (i 1).val = 0 := by decide +kernel
theorem cond2_iff : ∀ i : grid0.Coords, k0_cond2 i = 1#1 ↔ (i 1).val ≠ 0 := by decide +kernel

/-! ## What the two result arrays end at -/

/-- The grid point of batch `b`, tile `k`. -/
def pt (b k : ℕ) (hb : b < 4) (hk : k < 8) : Fin cfg0.N := ⟨8 * b + k, by
  have : cfg0.N = 32 := N_0
  omega⟩

/-- The first result: entry `(b, n)` is entry `n % 512` of the strip stored at batch `b`, tile `n / 512`. -/
def E4 (c : Dev nD) : Vec F S4x4096 .f32 := fun y =>
  let t := pt (y 0).val ((y 1).val / 512) (show (y 0).val < 4 from (y 0).isLt) (by have h : (y 1).val < 4096 := (y 1).isLt; omega)
  strip (grid0.coords t) (x0 m c t) (x1 m c t) (x2 m c t) (x3 m c t)
    (ValueIdx.ix2 (⟨0, Nat.one_pos⟩ : Fin 1) (⟨(y 1).val % 512, Nat.mod_lt _ (by decide)⟩ : Fin 512))

/-- Row `b` of the second result after the batch's tile `k`: the first tile's column minima, then the running minimum
    with each later tile's. -/
def acc5 (c : Dev nD) (b : ℕ) (hb : b < 4) : (k : ℕ) → k < 8 → FVec F S1x4096 .f32
  | 0, hk => let t := pt b 0 hb hk; colmin (grid0.coords t) (x0 m c t) (x1 m c t) (x2 m c t) (x3 m c t)
  | k + 1, hk => let t := pt b (k + 1) hb hk
    colminWith (grid0.coords t) (x0 m c t) (x1 m c t) (x2 m c t) (x3 m c t) (acc5 c b hb k (by omega))

/-- The second result (before the host's clamp): row `b` is the running minimum after the batch's last tile. -/
def E5 (c : Dev nD) : Vec F S4x4096 .f32 := fun y =>
  acc5 m c (y 0).val (show (y 0).val < 4 from (y 0).isLt) 7 (by decide) (ValueIdx.ix2 (⟨0, Nat.one_pos⟩ : Fin 1) (⟨(y 1).val, (show (y 1).val < 4096 from (y 1).isLt)⟩ : Fin 4096))

end Cert.KernelIdeal.Body

end
-- ==== Proof.KI.Body.lean ====
/-
  The body obligation of the relational proof data: at every grid point, from each window's buffer at contents it may
  hold there, the kernel body runs and leaves every buffer in the data's relation to what it found.
-/
import proofs.«154753_g1726576856987_cont_8to1_201_24_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An input window's buffer holds the window's block of its array whenever the body is handed it. -/
theorem finds_in0 (c : Dev nD) (t : Fin cfg0.N) (Y) (h : (rdat m c).Finds 0 t Y) : Y = x0 m c t := by
  obtain ⟨d, hd⟩ := (rdat m c).finds_in_eq_fetched 0 rfl (fun _ _ _ => rfl)
    (fun t Y X h => by dsimp only [rdat] at h; exact h) t Y h
  rw [hd]
  unfold RDat.fetched RDat.blockOf x0 iblk
  dsimp only [rdat]
  rfl
theorem finds_in1 (c : Dev nD) (t : Fin cfg0.N) (Y) (h : (rdat m c).Finds 1 t Y) : Y = x1 m c t := by
  obtain ⟨d, hd⟩ := (rdat m c).finds_in_eq_fetched 1 rfl (fun _ _ _ => rfl)
    (fun t Y X h => by dsimp only [rdat] at h; exact h) t Y h
  rw [hd]
  unfold RDat.fetched RDat.blockOf x1 iblk
  dsimp only [rdat]
  rfl
theorem finds_in2 (c : Dev nD) (t : Fin cfg0.N) (Y) (h : (rdat m c).Finds 2 t Y) : Y = x2 m c t := by
  obtain ⟨d, hd⟩ := (rdat m c).finds_in_eq_fetched 2 rfl (fun _ _ _ => rfl)
    (fun t Y X h => by dsimp only [rdat] at h; exact h) t Y h
  rw [hd]
  unfold RDat.fetched RDat.blockOf x2 iblk
  dsimp only [rdat]
  rfl
theorem finds_in3 (c : Dev nD) (t : Fin cfg0.N) (Y) (h : (rdat m c).Finds 3 t Y) : Y = x3 m c t := by
  obtain ⟨d, hd⟩ := (rdat m c).finds_in_eq_fetched 3 rfl (fun _ _ _ => rfl)
    (fun t Y X h => by dsimp only [rdat] at h; exact h) t Y h
  rw [hd]
  unfold RDat.fetched RDat.blockOf x3 iblk
  dsimp only [rdat]
  rfl

/-! ## What the two runs store -/

/-- At a batch's first tile the first result's buffer receives the strip, -/
theorem runA_L4 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (kernelRunA c i a2 h2 a3 h3 a4 h4 a5 h5 a6 h6 a7 h7 hc1 hc2 x0 x1 x2 x3 xo4 xo5).1
      = [⟨Ra i, strip i x0 x1 x2 x3⟩] := by
  unfold kernelRunA; dsimp only
  simp only [View.readAt_eq_ld, Memref.IsWhole.read_unread]
  rfl

/-- and the second result's buffer the tile's column minima, in row `b`. -/
theorem runA_L5 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : k0_cond1 i = 1#1) (hc2 : ¬ k0_cond2 i = 1#1)
    (x0 : Vec F S1x512x3 .f32) (x1 : Vec F S1x4096x3 .f32) (x2 x3 xo4 xo5 : Vec F S4x4096 .f32) :
    (kernelRunA c i a2 h2 a3 h3 a4 h4 a5 h5 a6 h6 a7 h7 hc1 hc2 x0 x1 x2 x3 xo4 xo5).2.1
      = [⟨R3 i hc1, colmin i x0 x1 x2 x3⟩] := by
  unfold kernelRunA; dsimp only
  simp only [View.readAt_eq_ld, Memref.IsWhole.read_unread]
  rfl

/-- At a later tile the first result's buffer receives the strip, -/
theorem runB_L4 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (kernelRunB c i a2 h2 a3 h3 a4 h4 a5 h5 a6 h6 a7 h7 hc1 hc2 x0 x1 x2 x3 xo4 xo5).1
      = [⟨Ra i, strip i x0 x1 x2 x3⟩] := by
  unfold kernelRunB; dsimp only
  simp only [View.readAt_eq_ld, Memref.IsWhole.read_unread]
  rfl

/-- and row `b` of the second result's buffer its minimum with the tile's column minima. -/
theorem runB_L5 (c : Dev nD) (i : grid0.Coords)
    (a2 : Memref sig .tc .vmem S1x512x3 .f32) (h2 : a2.IsWhole) (a3 : Memref sig .tc .vmem S1x4096x3 .f32) (h3 : a3.IsWhole)
    (a4 : Memref sig .tc .vmem S4x4096 .f32) (h4 : a4.IsWhole) (a5 : Memref sig .tc .vmem S4x4096 .f32) (h5 : a5.IsWhole)
    (a6 : Memref sig .tc .vmem S4x4096 .f32) (h6 : a6.IsWhole) (a7 : Memref sig .tc .vmem S4x4096 .f32) (h7 : a7.IsWhole)
    (hc1 : ¬ k0_cond1 i = 1#1) (hc2 : k0_cond2 i = 1#1)
    (x0 : Vec F S1x512x3 .f32) (x1 : Vec F S1x4096x3 .f32) (x2 x3 xo4 xo5 : Vec F S4x4096 .f32) :
    (kernelRunB c i a2 h2 a3 h3 a4 h4 a5 h5 a6 h6 a7 h7 hc1 hc2 x0 x1 x2 x3 xo4 xo5).2.1
      = [⟨R4 i hc2, colminWith i x0 x1 x2 x3 (View.ld xo5 (R4 i hc2))⟩] := by
  unfold kernelRunB; dsimp only
  simp only [View.readAt_eq_ld, Memref.IsWhole.read_unread]
  rfl

/-! ## The proof data's relations, window by window -/

theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = nxt4 m c t Y) := by dsimp only [rdat]
theorem after_5 (c : Dev nD) (t : Fin cfg0.N) (Y X) : (rdat m c).after 5 t Y X = (X = nxt5 m c t Y) := by dsimp only [rdat]

/-! ## The body at a generic point -/

set_option maxHeartbeats 800000 in
/-- The body at any point, handed the four input blocks and the two result buffers at arbitrary contents: the
    grid coordinate decides which of the two runs applies (a batch's first tile, or a later one); the inputs come back
    as they were, the result buffers transformed as the proof data say; the invariant and the (empty) debt pass
    through unread. -/
theorem sound_body (c : Dev nD) (t : Fin cfg0.N) (Y4 Y5 : Vec F S4x4096 .f32) :
    iprop((rdat m c).Φ t.castSucc ∗ (rdat m c).owesAt () t.castSucc
        ∗ owns (c : Thread nD τ) (ms0 t) fullShare (x0 m c t) ∗ owns (c : Thread nD τ) (ms1 t) fullShare (x1 m c t)
        ∗ owns (c : Thread nD τ) (ms2 t) fullShare (x2 m c t) ∗ owns (c : Thread nD τ) (ms3 t) fullShare (x3 m c t)
        ∗ owns (c : Thread nD τ) (ms4 t) fullShare Y4 ∗ owns (c : Thread nD τ) (ms5 t) fullShare Y5)
      ⊢ wp frame (wpE (defs₀ (F := F)) Variants.none c none) Set.univ (bodyAt0 t) fun _ =>
        iprop((rdat m c).Φ t.succ ∗ (rdat m c).owesAt () t.succ
          ∗ (∃ X, ⌜(rdat m c).after 0 t (x0 m c t) X⌝ ∗ owns (c : Thread nD τ) (ms0 t) fullShare X)
          ∗ (∃ X, ⌜(rdat m c).after 1 t (x1 m c t) X⌝ ∗ owns (c : Thread nD τ) (ms1 t) fullShare X)
          ∗ (∃ X, ⌜(rdat m c).after 2 t (x2 m c t) X⌝ ∗ owns (c : Thread nD τ) (ms2 t) fullShare X)
          ∗ (∃ X, ⌜(rdat m c).after 3 t (x3 m c t) X⌝ ∗ owns (c : Thread nD τ) (ms3 t) fullShare X)
          ∗ (∃ X, ⌜(rdat m c).after 4 t Y4 X⌝ ∗ owns (c : Thread nD τ) (ms4 t) fullShare X)
          ∗ (∃ X, ⌜(rdat m c).after 5 t Y5 X⌝ ∗ owns (c : Thread nD τ) (ms5 t) fullShare X)) := by
  rw [show (rdat m c).Φ t.succ = (rdat m c).Φ t.castSucc from rfl,
    show (rdat m c).owesAt () t.succ = (rdat m c).owesAt () t.castSucc from rfl]
  simp only [after_0, after_1, after_2, after_3, after_4, after_5]
  unfold bodyAt0
  by_cases h1 : k0_cond1 (grid0.coords t) = 1#1
  · have h2 : ¬ k0_cond2 (grid0.coords t) = 1#1 := fun h => (cond2_iff _).mp h ((cond1_iff _).mp h1)
    iintro ⟨HΦ, Ho, H0, H1, H2, H3, H4, H5⟩
    iapply ((kernelRunA c (grid0.coords t) (ms0 t) (hs0 t) (ms1 t) (hs1 t) (ms2 t) (hs2 t) (ms3 t) (hs3 t) (ms4 t) (hs4 t) (ms5 t) (hs5 t)
      h1 h2 (x0 m c t) (x1 m c t) (x2 m c t) (x3 m c t) Y4 Y5).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists nxt4 m c t Y4; isplitr; · ipureintro; rfl
      unfold owns; iexists _; isplitr; swap; · iexact H4
      ipureintro; rw [runA_L4]; rfl
    · iexists nxt5 m c t Y5; isplitr; · ipureintro; rfl
      unfold owns; iexists _; isplitr; swap; · iexact H5
      ipureintro; rw [runA_L5]; unfold nxt5; rw [dif_pos h1]
  · have h2 : k0_cond2 (grid0.coords t) = 1#1 := (cond2_iff _).mpr fun h => h1 ((cond1_iff _).mpr h)
    iintro ⟨HΦ, Ho, H0, H1, H2, H3, H4, H5⟩
    iapply ((kernelRunB c (grid0.coords t) (ms0 t) (hs0 t) (ms1 t) (hs1 t) (ms2 t) (hs2 t) (ms3 t) (hs3 t) (ms4 t) (hs4 t) (ms5 t) (hs5 t)
      h1 h2 (x0 m c t) (x1 m c t) (x2 m c t) (x3 m c t) Y4 Y5).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists nxt4 m c t Y4; isplitr; · ipureintro; rfl
      unfold owns; iexists _; isplitr; swap; · iexact H4
      ipureintro; rw [runB_L4]; rfl
    · iexists nxt5 m c t Y5; isplitr; · ipureintro; rfl
      unfold owns; iexists _; isplitr; swap; · iexact H5
      ipureintro; rw [runB_L5]; unfold nxt5; rw [dif_neg h1, dif_pos h2]

/-- The body obligation, on every core. -/
theorem body_obligation (c : Dev nD) : (rdat m c).BodyObligation (defs₀ (F := F)) Variants.none () Set.univ := by
  intro t Y hY
  rw [Gen.bigSep_W0, Gen.bigSep_W0]
  rw [finds_in0 m c t (Y 0) (hY 0), finds_in1 m c t (Y 1) (hY 1), finds_in2 m c t (Y 2) (hY 2), finds_in3 m c t (Y 3) (hY 3)]
  exact sound_body m c t (Y 4) (Y 5)

end Cert.KernelIdeal.Body

end
-- ==== Proof.KI.FrameRun.lean ====
/-
  The frame: every weakly fair execution of @main terminates without a fault and leaves both argument arrays as they
  were. The first argument is an input window's array, which the pipeline never writes; the second bypasses the region
  and is written by no host operation.
-/
import proofs.«154753_g1726576856987_cont_8to1_201_24_alg».proof.Proof.KI.Body

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host operations after the region write: the clamp's zero, its broadcast, and the clamped second
    result. -/
abbrev sfxT : Finset (Ref sig .tc) := {main_call0_cst_2, main_call0_v7, main_v0_1}

/-- Each host operation after the region writes its own result buffer only, one of the three above. -/
theorem sfx_writes : ∀ ops ∈ ([hostOps1] : List (List (HloOp τ sig (Elt F)))), ∀ op ∈ ops,
    ∀ b : Ref sig .tc, Proc.devRef .tc b ∈ op.writes → b ∈ sfxT := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.nullary_writes, StableHlo.unary_writes, StableHlo.binary_writes, Finset.mem_singleton] at hb
    obtain rfl := Proc.devRef_injective (τ := τ) _ hb
    decide

/-- Every window's share is the full share: an output's by definition, an input's by the data. -/
theorem rdat_share (c : Dev nD) (w : Fin cfg0.W) : (rdat m c).share w = fullShare := by
  unfold RDat.share; split <;> rfl

/-- The frame run of the relational data: the arrays at contents they may hold after every write-back, every bypassing
    buffer the later host operations do not write as the region found it. -/
theorem frame_runR :
    θ_run defs (onTc (τ := τ) (main (F := F))) (s₀ m ρ)
      (RDat.FramePostR cfg0 (fun c => rdat m c) sfxT (fun c b => Gen.V0 m c (Proc.devRef .tc b))) :=
  Pipeline.RDat.θ_run_frame_around_T cfgs 0 launch0 defs₀ Variants.none (fun c => rdat m c) sfxT m ρ main
    (fun c => body_obligation m c) (fun c w => rdat_share m c w) (fun _ _ => rfl)
    (Gen.V0 m) [hostOps1] Gen.sfx_sub Gen.sfx_fresh Gen.sfx_keeps sfx_writes (Gen.hmain m Variants.none)
    (fun _ _ => rfl) (fun _ _ => rfl)

theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(RDat.FramePostR.arr_in h c 0 rfl).trans (Gen.V_main_arg0 m c),
     ((h c).2 main_arg1 (Finset.mem_sdiff.mpr ⟨Pipeline.mem_restRefs_of main_arg1 (by decide) (by decide), by decide⟩)).trans
       (Gen.V_main_arg1 m c)⟩) (frame_runR m ρ)

end Cert.KernelIdeal.Body

end
-- ==== Proof.KI.Chain.lean ====
/-
  What the two result arrays hold after the region: the induction over the grid points.

  Whatever a result's buffer held when the region began, after the points before `t` it agrees with the target on every
  entry those points wrote: for the first result, the strips of the points before `t`; for the second, the finished
  rows of earlier batches and, within the current batch, the running minimum over the tiles done so far. After the
  last point every entry has been written, and the one write-back copies the buffer to the array.
-/
import proofs.«154753_g1726576856987_cont_8to1_201_24_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two results are never fetched, and written back at the last point only -/

theorem fetch4 : ∀ t : Fin cfg0.N, (cfg0.win 4).fetch t = false :=
  (by decide +kernel : ∀ t : Fin grid0.N, win0_4.fetch t = false)
theorem fetch5 : ∀ t : Fin cfg0.N, (cfg0.win 5).fetch t = false :=
  (by decide +kernel : ∀ t : Fin grid0.N, win0_5.fetch t = false)

/-! ## The one write-back copies the whole buffer -/

theorem idx4_zero (t : Fin cfg0.N) (a : Fin 2) : (cfg0.win 4).index t a = 0 := by
  fin_cases a <;> rfl
theorem idx5_zero (t : Fin cfg0.N) (a : Fin 2) : (cfg0.win 5).index t a = 0 := by
  fin_cases a <;> rfl

/-- The block of the first result's window is the whole array: an element of the block sits in the array at its own index. -/
theorem blk4_emb (t : Fin cfg0.N) (i : ((cfg0.win 4).xblock (cfg0.grid.coords t)).Idx) (a : Fin 2) :
    ((((cfg0.win 4).blk t).view.emb i) a).val = (i a).val := by
  rw [View.emb_slice, Function.Embedding.trans_apply, View.emb_whole, Function.Embedding.refl_apply, Rect.emb_apply]
  show (cfg0.win 4).index t a * (cfg0.win 4).size a + 1 * (i a).val = (i a).val
  rw [idx4_zero]; omega
theorem blk5_emb (t : Fin cfg0.N) (i : ((cfg0.win 5).xblock (cfg0.grid.coords t)).Idx) (a : Fin 2) :
    ((((cfg0.win 5).blk t).view.emb i) a).val = (i a).val := by
  rw [View.emb_slice, Function.Embedding.trans_apply, View.emb_whole, Function.Embedding.refl_apply, Rect.emb_apply]
  show (cfg0.win 5).index t a * (cfg0.win 5).size a + 1 * (i a).val = (i a).val
  rw [idx5_zero]; omega

/-- Writing a buffer's contents back through the whole-array block leaves the array at those contents. -/
theorem write_full4 (c : Dev nD) (t : Fin cfg0.N) (G₀ : Buf (Elt F) ((cfg0.win 4).arr.view.loc (c.tc : Thread nD τ)))
    (X : Vec F S4x4096 .f32) :
    (((cfg0.win 4).blk t).view.write (Elt F) G₀ ((cfg0.win 4).cut (cfg0.grid.coords t) X) Finset.univ : Vec F S4x4096 .f32) = X := by
  funext i
  have hy : ((cfg0.win 4).blk t).view.emb (i : ((cfg0.win 4).xblock (cfg0.grid.coords t)).Idx) = i := by
    funext a; apply Fin.ext
    exact blk4_emb t i a
  conv_lhs => rw [← hy, View.write_emb_of_mem _ _ (Finset.mem_univ _)]
  rfl
theorem write_full5 (c : Dev nD) (t : Fin cfg0.N) (G₀ : Buf (Elt F) ((cfg0.win 5).arr.view.loc (c.tc : Thread nD τ)))
    (X : Vec F S4x4096 .f32) :
    (((cfg0.win 5).blk t).view.write (Elt F) G₀ ((cfg0.win 5).cut (cfg0.grid.coords t) X) Finset.univ : Vec F S4x4096 .f32) = X := by
  funext i
  have hy : ((cfg0.win 5).blk t).view.emb (i : ((cfg0.win 5).xblock (cfg0.grid.coords t)).Idx) = i := by
    funext a; apply Fin.ext
    exact blk5_emb t i a
  conv_lhs => rw [← hy, View.write_emb_of_mem _ _ (Finset.mem_univ _)]
  rfl

/-- After the region the first result's array holds what the body left in the buffer at the last point. -/
theorem arr4_leaves (c : Dev nD) (A : Buf (Elt F) ((cfg0.win 4).arr.view.loc (c.tc : Thread nD τ)))
    (h : (rdat m c).ArrAt 4 cfg0.N A) : ∃ h31 : 31 < cfg0.N, (rdat m c).Leaves 4 ⟨31, h31⟩ A := by
  have hN : cfg0.N = 32 := N_0
  have h31 : 31 < cfg0.N := by omega
  rw [hN] at h
  have e := (rdat m c).ArrAt_succ 4 ⟨31, h31⟩
  have hfl : (cfg0.win 4).flush ⟨31, h31⟩ = true := (flush0_4 _).mpr rfl
  rw [if_pos hfl] at e
  rw [show (32 : ℕ) = (⟨31, h31⟩ : Fin cfg0.N).val + 1 from rfl, e] at h
  obtain ⟨G₀, X, hG₀, hX, rfl⟩ := h
  refine ⟨h31, ?_⟩
  rw [write_full4 c ⟨31, h31⟩ G₀ X]
  exact hX
theorem arr5_leaves (c : Dev nD) (A : Buf (Elt F) ((cfg0.win 5).arr.view.loc (c.tc : Thread nD τ)))
    (h : (rdat m c).ArrAt 5 cfg0.N A) : ∃ h31 : 31 < cfg0.N, (rdat m c).Leaves 5 ⟨31, h31⟩ A := by
  have hN : cfg0.N = 32 := N_0
  have h31 : 31 < cfg0.N := by omega
  rw [hN] at h
  have e := (rdat m c).ArrAt_succ 5 ⟨31, h31⟩
  have hfl : (cfg0.win 5).flush ⟨31, h31⟩ = true := (flush0_5 _).mpr rfl
  rw [if_pos hfl] at e
  rw [show (32 : ℕ) = (⟨31, h31⟩ : Fin cfg0.N).val + 1 from rfl, e] at h
  obtain ⟨G₀, X, hG₀, hX, rfl⟩ := h
  refine ⟨h31, ?_⟩
  rw [write_full5 c ⟨31, h31⟩ G₀ X]
  exact hX

/-! ## The first result: a point overwrites its strip and nothing else -/

/-- An entry of the strip that point `t` stores holds, after the point, the target's value. -/
theorem nxt4_in (c : Dev nD) (t : Fin cfg0.N) (Y : Vec F S4x4096 .f32) (y : S4x4096.Idx)
    (hy : 8 * (y 0).val + (y 1).val / 512 = t.val) : nxt4 m c t Y y = E4 m c y := by
  have h0 : (y 0).val < 4 := (y 0).isLt
  have h1 : (y 1).val < 4096 := (y 1).isLt
  have hk : (y 1).val / 512 < 8 := Nat.div_lt_of_lt_mul h1
  obtain rfl : t = pt (y 0).val ((y 1).val / 512) h0 hk := Fin.ext hy.symm
  obtain ⟨hc0, hc1⟩ := coords_val (pt (y 0).val ((y 1).val / 512) h0 hk)
  unfold nxt4
  refine (View.read_writes_cons_unit_of_mem (ms4 _).view ((hs4 _).unread Y) (k0_off1_inb _) _ [] y
    (ValueIdx.ix2 (⟨0, Nat.one_pos⟩ : Fin 1) (⟨(y 1).val % 512, Nat.mod_lt _ (by decide)⟩ : Fin 512))
    (k0_off1_eq _) ?_).trans ?_
  · intro a
    fin_cases a
    · show (y 0).val = ((grid0.coords _) 0).val + 0
      rw [hc0]; show (y 0).val = (8 * (y 0).val + (y 1).val / 512) / 8 + 0; omega
    · show (y 1).val = 512 * ((grid0.coords _) 1).val + (y 1).val % 512
      rw [hc1]; show (y 1).val = 512 * ((8 * (y 0).val + (y 1).val / 512) % 8) + (y 1).val % 512; omega
  · rfl

/-- Every other entry keeps what the buffer held. -/
theorem nxt4_out (c : Dev nD) (t : Fin cfg0.N) (Y : Vec F S4x4096 .f32) (y : S4x4096.Idx)
    (hy : 8 * (y 0).val + (y 1).val / 512 ≠ t.val) : nxt4 m c t Y y = Y y := by
  have h0 : (y 0).val < 4 := (y 0).isLt
  have h1 : (y 1).val < 4096 := (y 1).isLt
  obtain ⟨hc0, hc1⟩ := coords_val t
  unfold nxt4
  have hrest : (ms4 t).view.read (Elt F) ((ms4 t).view.writes (Elt F) ((hs4 t).unread Y) []) y = Y y :=
    congrFun ((hs4 t).read_unread Y) y
  by_cases hrow : (y 0).val = t.val / 8
  · refine (View.read_writes_cons_unit_of_not_mem (ms4 t).view ((hs4 t).unread Y) (k0_off1_inb _) _ [] y
      (k0_off1_eq _) (1 : Fin 2) ?_).trans hrest
    show (y 1).val < 512 * ((grid0.coords t) 1).val ∨ 512 * ((grid0.coords t) 1).val + 512 ≤ (y 1).val
    rw [hc1]; omega
  · refine (View.read_writes_cons_unit_of_not_mem (ms4 t).view ((hs4 t).unread Y) (k0_off1_inb _) _ [] y
      (k0_off1_eq _) (0 : Fin 2) ?_).trans hrest
    show (y 0).val < ((grid0.coords t) 0).val ∨ ((grid0.coords t) 0).val + 1 ≤ (y 0).val
    rw [hc0]; omega

/-- After the points before `n`, every entry those points wrote holds the target's value. -/
def Inv4 (c : Dev nD) (n : ℕ) (Y : Vec F S4x4096 .f32) : Prop :=
  ∀ y : S4x4096.Idx, 8 * (y 0).val + (y 1).val / 512 < n → Y y = E4 m c y

theorem inv4_step (c : Dev nD) (n : ℕ) (hn : n < cfg0.N) (Y : Vec F S4x4096 .f32) (h : Inv4 m c n Y) :
    Inv4 m c (n + 1) (nxt4 m c ⟨n, hn⟩ Y) := by
  intro y hy
  by_cases hyn : 8 * (y 0).val + (y 1).val / 512 = n
  · exact nxt4_in m c ⟨n, hn⟩ Y y hyn
  · rw [nxt4_out m c ⟨n, hn⟩ Y y hyn]
    exact h y (by omega)

theorem leaves4_of_finds (c : Dev nD) (n : ℕ) (hn : n < cfg0.N)
    (hF : ∀ Y, (rdat m c).Finds 4 ⟨n, hn⟩ Y → Inv4 m c n Y) (X : Vec F S4x4096 .f32)
    (hX : (rdat m c).Leaves 4 ⟨n, hn⟩ X) : Inv4 m c (n + 1) X := by
  obtain ⟨Y, hY, hYX⟩ := hX
  have e : X = nxt4 m c ⟨n, hn⟩ Y := hYX
  rw [e]
  exact inv4_step m c n hn Y (hF Y hY)

/-- What the body finds in the first result's buffer at point `n` agrees with the target on the entries written so far. -/
theorem finds4_inv (c : Dev nD) : ∀ (n : ℕ) (hn : n < cfg0.N) (Y : Vec F S4x4096 .f32),
    (rdat m c).Finds 4 ⟨n, hn⟩ Y → Inv4 m c n Y
  | 0, _, _, _ => fun y hy => absurd hy (Nat.not_lt_zero _)
  | n + 1, hn, Y, hY => by
    have hN : cfg0.N = 32 := N_0
    rw [(rdat m c).finds_of_pos (fetch4 _) (Nat.succ_ne_zero n)] at hY
    rcases hY with hfl | hL
    · exfalso
      rw [flush0_4] at hfl
      have : n % 32 = 31 := hfl
      omega
    · exact leaves4_of_finds m c n (by omega) (finds4_inv c n (by omega)) Y hL

/-- The first result's array ends at its target. -/
theorem arr4_eq (c : Dev nD) (A : Buf (Elt F) ((cfg0.win 4).arr.view.loc (c.tc : Thread nD τ)))
    (h : (rdat m c).ArrAt 4 cfg0.N A) : A = E4 m c := by
  obtain ⟨h31, hL⟩ := arr4_leaves m c A h
  have hI : Inv4 m c 32 A := leaves4_of_finds m c 31 h31 (finds4_inv m c 31 h31) A hL
  funext y
  have h0 : (y 0).val < 4 := (y 0).isLt
  have h1 : (y 1).val < 4096 := (y 1).isLt
  exact hI y (by omega)

/-! ## The second result: a point overwrites the batch's row and nothing else -/

theorem acc5_congr (c : Dev nD) (b b' : ℕ) (hb : b < 4) (hb' : b' < 4) (e : b = b') (k : ℕ) (hk : k < 8) :
    acc5 m c b hb k hk = acc5 m c b' hb' k hk := by
  subst e; rfl

/-- A row other than the batch's keeps what the buffer held. -/
theorem nxt5_out (c : Dev nD) (t : Fin cfg0.N) (Y : Vec F S4x4096 .f32) (y : S4x4096.Idx)
    (hy : (y 0).val ≠ t.val / 8) : nxt5 m c t Y y = Y y := by
  obtain ⟨hc0, hc1⟩ := coords_val t
  have hrest : (ms5 t).view.read (Elt F) ((ms5 t).view.writes (Elt F) ((hs5 t).unread Y) []) y = Y y :=
    congrFun ((hs5 t).read_unread Y) y
  have hax : (y 0).val < ((grid0.coords t) 0).val ∨ ((grid0.coords t) 0).val + 1 ≤ (y 0).val := by
    rw [hc0]; omega
  unfold nxt5
  by_cases h1 : k0_cond1 (grid0.coords t) = 1#1
  · rw [dif_pos h1]
    exact (View.read_writes_cons_unit_of_not_mem (ms5 t).view ((hs5 t).unread Y) (k0_off3_inb _ h1) _ [] y
      (k0_off3_eq _) (0 : Fin 2) hax).trans hrest
  · rw [dif_neg h1]
    by_cases h2 : k0_cond2 (grid0.coords t) = 1#1
    · rw [dif_pos h2]
      exact (View.read_writes_cons_unit_of_not_mem (ms5 t).view ((hs5 t).unread Y) (k0_off4_inb _ h2) _ [] y
        (k0_off4_eq _) (0 : Fin 2) hax).trans hrest
    · rw [dif_neg h2]

/-- At a batch's first tile the batch's row becomes the tile's column minima. -/
theorem nxt5_first (c : Dev nD) (t : Fin cfg0.N) (Y : Vec F S4x4096 .f32) (y : S4x4096.Idx)
    (hrow : (y 0).val = t.val / 8) (hk : t.val % 8 = 0) :
    nxt5 m c t Y y = acc5 m c (y 0).val (y 0).isLt 0 (by decide)
      (ValueIdx.ix2 (⟨0, Nat.one_pos⟩ : Fin 1) (⟨(y 1).val, (y 1).isLt⟩ : Fin 4096)) := by
  have h0 : (y 0).val < 4 := (y 0).isLt
  obtain rfl : t = pt (y 0).val 0 h0 (by decide) := Fin.ext (by show t.val = 8 * (y 0).val + 0; omega)
  obtain ⟨hc0, hc1⟩ := coords_val (pt (y 0).val 0 h0 (by decide))
  have h1 : k0_cond1 (grid0.coords (pt (y 0).val 0 h0 (by decide))) = 1#1 := (cond1_iff _).mpr (by rw [hc1]; exact hk)
  unfold nxt5
  rw [dif_pos h1]
  refine (View.read_writes_cons_unit_of_mem (ms5 _).view ((hs5 _).unread Y) (k0_off3_inb _ h1) _ [] y
    (ValueIdx.ix2 (⟨0, Nat.one_pos⟩ : Fin 1) (⟨(y 1).val, (y 1).isLt⟩ : Fin 4096))
    (k0_off3_eq _) ?_).trans ?_
  · intro a
    fin_cases a
    · show (y 0).val = ((grid0.coords _) 0).val + 0
      rw [hc0]; omega
    · show (y 1).val = 0 + (y 1).val
      omega
  · rfl

/-- At a later tile the batch's row becomes its minimum with the tile's column minima. -/
theorem nxt5_later (c : Dev nD) (t : Fin cfg0.N) (Y : Vec F S4x4096 .f32) (y : S4x4096.Idx)
    (hrow : (y 0).val = t.val / 8) (k' : ℕ) (hk' : k' + 1 < 8) (hk : t.val % 8 = k' + 1)
    (hY : ∀ y' : S4x4096.Idx, (y' 0).val = (y 0).val → Y y' = acc5 m c (y 0).val (y 0).isLt k' (Nat.lt_of_succ_lt hk')
      (ValueIdx.ix2 (⟨0, Nat.one_pos⟩ : Fin 1) (⟨(y' 1).val, (y' 1).isLt⟩ : Fin 4096))) :
    nxt5 m c t Y y = acc5 m c (y 0).val (y 0).isLt (k' + 1) hk'
      (ValueIdx.ix2 (⟨0, Nat.one_pos⟩ : Fin 1) (⟨(y 1).val, (y 1).isLt⟩ : Fin 4096)) := by
  have h0 : (y 0).val < 4 := (y 0).isLt
  obtain rfl : t = pt (y 0).val (k' + 1) h0 hk' := Fin.ext (by show t.val = 8 * (y 0).val + (k' + 1); omega)
  obtain ⟨hc0, hc1⟩ := coords_val (pt (y 0).val (k' + 1) h0 hk')
  have hc0' : ((grid0.coords (pt (y 0).val (k' + 1) h0 hk')) 0).val = (y 0).val := by rw [hc0]; exact hrow.symm
  have h1 : ¬ k0_cond1 (grid0.coords (pt (y 0).val (k' + 1) h0 hk')) = 1#1 := fun h => by
    have := (cond1_iff _).mp h
    rw [hc1, hk] at this; omega
  have h2 : k0_cond2 (grid0.coords (pt (y 0).val (k' + 1) h0 hk')) = 1#1 := (cond2_iff _).mpr (by rw [hc1, hk]; omega)
  have hld : View.ld Y (R4 (grid0.coords (pt (y 0).val (k' + 1) h0 hk')) h2)
      = acc5 m c (y 0).val (y 0).isLt k' (Nat.lt_of_succ_lt hk') := by
    funext x'
    have hx0 : (x' 0).val < 1 := (x' 0).isLt
    have e0 : (((R4 (grid0.coords (pt (y 0).val (k' + 1) h0 hk')) h2).idx x') 0).val = (y 0).val := by
      show k0_off4 (grid0.coords (pt (y 0).val (k' + 1) h0 hk')) 0 + 1 * (x' 0).val = (y 0).val
      rw [k0_off4_eq]
      show ((grid0.coords (pt (y 0).val (k' + 1) h0 hk')) 0).val + 1 * (x' 0).val = (y 0).val
      rw [hc0']; omega
    have e1 : (((R4 (grid0.coords (pt (y 0).val (k' + 1) h0 hk')) h2).idx x') 1).val = (x' 1).val := by
      show k0_off4 (grid0.coords (pt (y 0).val (k' + 1) h0 hk')) 1 + 1 * (x' 1).val = (x' 1).val
      rw [k0_off4_eq]
      show 0 + 1 * (x' 1).val = (x' 1).val
      omega
    refine (hY _ e0).trans (congrArg _ ?_)
    funext a
    fin_cases a
    · exact Fin.ext (by show 0 = (x' 0).val; omega)
    · exact Fin.ext e1
  unfold nxt5
  rw [dif_neg h1, dif_pos h2]
  refine (View.read_writes_cons_unit_of_mem (ms5 _).view ((hs5 _).unread Y) (k0_off4_inb _ h2) _ [] y
    (ValueIdx.ix2 (⟨0, Nat.one_pos⟩ : Fin 1) (⟨(y 1).val, (y 1).isLt⟩ : Fin 4096))
    (k0_off4_eq _) ?_).trans ?_
  · intro a
    fin_cases a
    · show (y 0).val = ((grid0.coords _) 0).val + 0
      rw [hc0']; omega
    · show (y 1).val = 0 + (y 1).val
      omega
  · rw [hld]
    rfl

/-- After the points before `n`: a row whose batch is under way holds the running minimum over the tiles done so far,
    a row whose batch is finished the minimum over all eight. -/
def Inv5 (c : Dev nD) (n : ℕ) (Y : Vec F S4x4096 .f32) : Prop :=
  ∀ (y : S4x4096.Idx) (k : ℕ) (hk : k < 8), (8 * (y 0).val + k + 1 = n ∨ (k = 7 ∧ 8 * (y 0).val + 8 ≤ n)) →
    Y y = acc5 m c (y 0).val (y 0).isLt k hk
      (ValueIdx.ix2 (⟨0, Nat.one_pos⟩ : Fin 1) (⟨(y 1).val, (y 1).isLt⟩ : Fin 4096))

theorem inv5_step (c : Dev nD) (n : ℕ) (hn : n < cfg0.N) (Y : Vec F S4x4096 .f32) (h : Inv5 m c n Y) :
    Inv5 m c (n + 1) (nxt5 m c ⟨n, hn⟩ Y) := by
  intro y k hk hc
  have h0 : (y 0).val < 4 := (y 0).isLt
  by_cases hrow : (y 0).val = n / 8
  · have hkn : n % 8 = k := by omega
    cases k with
    | zero => exact nxt5_first m c ⟨n, hn⟩ Y y hrow hkn
    | succ k' =>
      refine nxt5_later m c ⟨n, hn⟩ Y y hrow k' hk hkn fun y' hy' => ?_
      have e := h y' k' (Nat.lt_of_succ_lt hk) (Or.inl (by rw [hy']; omega))
      rw [e]
      exact congrFun (acc5_congr m c _ _ _ _ hy' k' _) _
  · rw [nxt5_out m c ⟨n, hn⟩ Y y hrow]
    exact h y k hk (by omega)

theorem leaves5_of_finds (c : Dev nD) (n : ℕ) (hn : n < cfg0.N)
    (hF : ∀ Y, (rdat m c).Finds 5 ⟨n, hn⟩ Y → Inv5 m c n Y) (X : Vec F S4x4096 .f32)
    (hX : (rdat m c).Leaves 5 ⟨n, hn⟩ X) : Inv5 m c (n + 1) X := by
  obtain ⟨Y, hY, hYX⟩ := hX
  have e : X = nxt5 m c ⟨n, hn⟩ Y := hYX
  rw [e]
  exact inv5_step m c n hn Y (hF Y hY)

/-- What the body finds in the second result's buffer at point `n` is the running minimum, row by row. -/
theorem finds5_inv (c : Dev nD) : ∀ (n : ℕ) (hn : n < cfg0.N) (Y : Vec F S4x4096 .f32),
    (rdat m c).Finds 5 ⟨n, hn⟩ Y → Inv5 m c n Y
  | 0, _, _, _ => fun y k hk hc => by exfalso; omega
  | n + 1, hn, Y, hY => by
    have hN : cfg0.N = 32 := N_0
    rw [(rdat m c).finds_of_pos (fetch5 _) (Nat.succ_ne_zero n)] at hY
    rcases hY with hfl | hL
    · exfalso
      rw [flush0_5] at hfl
      have : n % 32 = 31 := hfl
      omega
    · exact leaves5_of_finds m c n (by omega) (finds5_inv c n (by omega)) Y hL

/-- The second result's array ends at its target. -/
theorem arr5_eq (c : Dev nD) (A : Buf (Elt F) ((cfg0.win 5).arr.view.loc (c.tc : Thread nD τ)))
    (h : (rdat m c).ArrAt 5 cfg0.N A) : A = E5 m c := by
  obtain ⟨h31, hL⟩ := arr5_leaves m c A h
  have hI : Inv5 m c 32 A := leaves5_of_finds m c 31 h31 (finds5_inv m c 31 h31) A hL
  funext y
  have h0 : (y 0).val < 4 := (y 0).isLt
  exact hI y 7 (by decide) (Or.inr ⟨rfl, by omega⟩)

end Cert.KernelIdeal.Body

end
-- ==== Proof.KI.Out.lean ====
/-
  The second result as the program returns it: the region's second output, clamped below at zero by the host.
-/
import proofs.«154753_g1726576856987_cont_8to1_201_24_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The host's clamp of the region's second output. -/
def out1 (c : Dev nD) : Vec F S4x4096 .f32 :=
  maximumf (E5 m c) (broadcastInDim S4x4096 ![] bcast_S_S4x4096 (constant S_ .f32 0x00000000#32))

end Cert.KernelIdeal.Body

end
-- ==== Proof.KI.ValueRun.lean ====
/-
  The run of @main with every result named: the first result array ends at `E4`, the second — the region's second
  output clamped at zero by the host — at `out1`, and both arguments end as they were.
-/
import proofs.«154753_g1726576856987_cont_8to1_201_24_alg».proof.Proof.KI.Body
import proofs.«154753_g1726576856987_cont_8to1_201_24_alg».proof.Proof.KI.Chain
import proofs.«154753_g1726576856987_cont_8to1_201_24_alg».proof.Proof.KI.Out
import Idealize.ShloMosaic.Lib.Pipeline.Regions

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region, at any contents they start from -/

/-- The second result after the three operations: the maximum of what the region's second output array holds and the
    broadcast zero. -/
theorem tail_v0_1 (W : Valuation τ sig (Elt F)) :
    StableHlo.after hostOps1 W (Proc.devRef .tc main_v0_1)
      = maximumf (W (Proc.devRef .tc main_call0_v6_1)) (broadcastInDim S4x4096 ![] bcast_S_S4x4096 (constant S_ .f32 0x00000000#32)) := by
  after_results; rfl

/-- None of the three writes the second argument. -/
theorem tail_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

/-! ## The arrays when the region is left -/

/-- Every array is held at the full share. -/
theorem share_eq (c : Dev nD) (w : Fin cfg0.W) : (rdat m c).share w = fullShare :=
  (rdat m c).share_full (fun _ => rfl) w

/-- The region's exit, opened: each array whole at some contents it may hold after every write-back. -/
theorem arraysAt_open (c : Dev nD) :
    ((rdat m c).arraysAt cfg0.N : sProp 𝕄)
      ⊢ iprop(∃ A : (w : Fin cfg0.W) → Buf (Elt F) ((cfg0.win w).arr.view.loc (c.tc : Thread nD τ)),
          ⌜∀ w, (rdat m c).ArrAt w cfg0.N (A w)⌝
            ∗ Pipeline.arrPts (Ix := Unit) (Name := ℕ) (U := UR sig nD τ) (Lvl := ℕ) spec0 c A) := by
  unfold RDat.arraysAt
  iintro Ha
  ihave Ha' := (BI.bigSep_exists_pi Finset.univ (fun w G => iprop(⌜(rdat m c).ArrAt w cfg0.N G⌝
      ∗ (cfg0.win w).arr.view.loc (c.tc : Thread nD τ) ↦[(cfg0.win w).arr.view.set]{(rdat m c).share w} G))) $$ Ha
  icases Ha' with ⟨%A, Ha⟩
  ihave Ha2 := (BI.bigSep_pure_sep Finset.univ (fun w => (rdat m c).ArrAt w cfg0.N (A w))
      (fun w => (cfg0.win w).arr.view.loc (c.tc : Thread nD τ) ↦[(cfg0.win w).arr.view.set]{(rdat m c).share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(launch0.arr_whole w).set_eq_univ, share_eq]) :
      (bigSep Finset.univ fun w => ((cfg0.win w).arr.view.loc (c.tc : Thread nD τ) ↦[(cfg0.win w).arr.view.set]{(rdat m c).share w} A w : sProp 𝕄))
        = bigSep Finset.univ fun w => (((c.tc : Thread nD τ).loc (Pipeline.arrRef spec0 w)) ↦{fullShare} A w : sProp 𝕄)))
  iexact Ha

/-- And closed again, at contents known to be possible. -/
theorem arraysAt_close (c : Dev nD) (A : (w : Fin cfg0.W) → Buf (Elt F) ((cfg0.win w).arr.view.loc (c.tc : Thread nD τ)))
    (hA' : ∀ w, (rdat m c).ArrAt w cfg0.N (A w)) :
    (Pipeline.arrPts (Ix := Unit) (Name := ℕ) (U := UR sig nD τ) (Lvl := ℕ) spec0 c A : sProp 𝕄) ⊢ (rdat m c).arraysAt cfg0.N := by
  unfold RDat.arraysAt Pipeline.arrPts
  refine BI.bigSep_mono fun w _ => ?_
  show ((c.tc : Thread nD τ).loc (Pipeline.arrRef spec0 w) ↦{fullShare} A w : sProp 𝕄)
    ⊢ iprop(∃ G, ⌜(rdat m c).ArrAt w cfg0.N G⌝ ∗ (cfg0.win w).arr.view.loc (c.tc : Thread nD τ) ↦[(cfg0.win w).arr.view.set]{(rdat m c).share w} G)
  rw [(launch0.arr_whole w).set_eq_univ, share_eq]
  iintro H; iexists (A w); isplitr; · ipureintro; exact hA' w
  iexact H

/-- An input window's array is never written: it holds there what it held when the region was entered. -/
theorem arr_in (c : Dev nD) (w : Fin cfg0.W) (hin : (cfg0.win w).isOut = false)
    (A : Buf (Elt F) ((cfg0.win w).arr.view.loc (c.tc : Thread nD τ))) (h : (rdat m c).ArrAt w cfg0.N A) :
    A = V m c (Pipeline.arrRef spec0 w) := by
  rw [(rdat m c).ArrAt_in w hin] at h; exact h

/-! ## What the host operations after the region leave, from the region's exit -/

/-- The second result: the clamp of the target of the region's second output. -/
theorem exit_v0_1 (c : Dev nD) (A : (w : Fin cfg0.W) → Buf (Elt F) ((cfg0.win w).arr.view.loc (c.tc : Thread nD τ)))
    (hA' : ∀ w, (rdat m c).ArrAt w cfg0.N (A w)) :
    StableHlo.after ([hostOps1] : List (List (HloOp τ sig (Elt F)))).flatten (Pipeline.withArrays spec0 c (V0 m c) A) (Proc.devRef .tc main_v0_1)
      = out1 m c := by
  rw [show ([hostOps1] : List (List (HloOp τ sig (Elt F)))).flatten = hostOps1 from by
    simp only [List.flatten_cons, List.flatten_nil, List.append_nil], tail_v0_1]
  unfold out1
  rw [show Pipeline.withArrays spec0 c (V0 m c) A (Proc.devRef .tc main_call0_v6_1) = A 5 from
    Pipeline.withArrays_arr spec0 launch0.win.arr_inj c (V0 m c) A 5, arr5_eq m c (A 5) (hA' 5)]

/-- The second argument: as launched. -/
theorem exit_arg1 (c : Dev nD) (A : (w : Fin cfg0.W) → Buf (Elt F) ((cfg0.win w).arr.view.loc (c.tc : Thread nD τ))) :
    StableHlo.after ([hostOps1] : List (List (HloOp τ sig (Elt F)))).flatten (Pipeline.withArrays spec0 c (V0 m c) A) (Proc.devRef .tc main_arg1)
      = m ((c.tc : Thread nD τ).loc main_arg1) := by
  rw [show ([hostOps1] : List (List (HloOp τ sig (Elt F)))).flatten = hostOps1 from by
    simp only [List.flatten_cons, List.flatten_nil, List.append_nil], tail_arg1,
    Pipeline.withArrays_of_ne spec0 c (V0 m c) A main_arg1 (by exact (by decide : ∀ w, Pipeline.arrRef spec0 w ≠ main_arg1))]
  exact V_main_arg1 m c

/-! ## The launch -/

/-- The pipeline prefetches no table: the one admissible choice of tables' contents. -/
abbrev adm : (q : Fin 1) → (pcfgs (F := F) q).Adm := fun q => (cfgs q).toPCfg_adm

-- the pipeline's configuration at no table is the plain one only up to unfolding definitions inside types
set_option backward.isDefEq.respectTransparency.types false in
/-- @main is nine host operations, the pipelined region, three host operations. The region is entered with every
    unscoped buffer at what the nine left (`V`); it leaves each window's array at some contents the write-backs may
    produce, which the data pin down: an input's are its entry contents, the two results' are `E4` and `E5`. The three
    operations after it run from there: they write the zero, its broadcast and the clamp of the second result array,
    and nothing else. Read against the final state: the first result array at `E4`, the clamp at `out1`, the first
    argument (an input window's array no host operation writes) and the second (which bypasses the region and is
    written by nothing) as launched. -/
theorem value_run :
    θ_run defs (onTc (τ := τ) (main (F := F))) ⟨m, fun _ => 0, ρ⟩ (fun r => ∀ c : Dev nD,
      r.2.mem ((c.tc : Thread nD τ).loc main_v0_0) = E4 m c
      ∧ r.2.mem ((c.tc : Thread nD τ).loc main_v0_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have kit : Pipeline.PLaunchFacts (nD := nD) (τ := τ) (pcfgs (F := F)) 0 := launch0.toP
  refine Pipeline.RDat.θ_run_region_pf_tail (pcfgs (F := F)) adm (fun _ c => rdat m c) () (kit.cellOf_inj adm) 0 kit.win.to₀
    (Pipeline.OwnSemFacts.none spec0) kit.pre emb₁ defs₀ Variants.none m ρ main
    (fun _ => Pipeline.chain [StableHlo.seq hostOps1]) (fun c => body_obligation m c)
    kit.block_pos kit.arr_whole kit.stage_whole (fun _ _ => rfl)
    (G := fun _ => iprop(emp))
    (u₀ := initOf (Pipeline.cells (Pipeline.pin (pcfgs (F := F)) adm) (kit.cellOf_inj adm)) (Pipeline.launchToks (Pipeline.pin (pcfgs (F := F)) adm) (kit.cellOf_inj adm)))
    (hu₀ := ?hu₀) (V := V m) (hmain := hmain m Variants.none) (hsplit := ?hsplit) (hpf := fun _ k => k.elim0)
    (X := fun c => iprop(∃ r, prngReg c r)) (Y := fun c => iprop(∃ r, prngReg c r))
    (Z := fun c => Pipeline.unscopedRestP Pipeline.Prefetch.none spec0 c (V m c))
    (Z' := fun c => iprop(∃ G : (b : Ref sig .tc) → Buf (Elt F) ((c.tc : Thread nD τ).loc b),
      ⌜G main_v0_1 = out1 m c ∧ G main_arg1 = m ((c.tc : Thread nD τ).loc main_arg1)⌝
        ∗ Pipeline.unscopedRestP Pipeline.Prefetch.none spec0 c G))
    (hX := ?hX) (hin := ?hin) (hout := ?hout) (htail := ?htail)
    (QY := fun c s => s.mem ((c.tc : Thread nD τ).loc main_v0_1) = out1 m c
      ∧ s.mem ((c.tc : Thread nD τ).loc main_arg1) = m ((c.tc : Thread nD τ).loc main_arg1))
    (hY := ?hY) (hQ := ?hQ)
  -- the launch element is the pipeline's own: its staging cells' ghost state and nothing else
  case hu₀ =>
    iintro Hu; imodintro
    isplitl [Hu]
    · iapply (show (ownU _ : sProp 𝕄) ⊢ BI.own (emb₁ (initOf (Pipeline.cells (Pipeline.pin (pcfgs (F := F)) adm) (kit.cellOf_inj adm))
        (Pipeline.launchToks (Pipeline.pin (pcfgs (F := F)) adm) (kit.cellOf_inj adm)))) from .rfl)
      iexact Hu
    iapply (show (BI.emp : sProp 𝕄) ⊢ bigSep Finset.univ (fun _ : Dev nD => (BI.emp : sProp 𝕄)) from by rw [BI.bigSep_emp_const])
    iempintro
  -- the arrays' buffers at `V` are the arrays at the data's entry contents, which are read off `V`
  case hsplit =>
    exact fun c => Pipeline.RDat.arrays_split (pcfgs (F := F)) adm (fun _ c => rdat m c) 0 kit.win.arr_inj c kit.arr_whole
      (share_eq m c) (V m c) _ (fun w => rfl)
  -- of what bypasses the arrays, the generator register enters the invariant and the unscoped buffers pass by
  case hX =>
    intro c
    iintro ⟨HU, -, -, -, Hp, -⟩; imodintro
    isplitl [Hp]; · iexists _; iexact Hp
    iexact HU
  -- the invariant is the class's: the scratch buffers and the generator register, each at something
  case hin =>
    intro c
    show _ ⊢ Pipeline.ΦA spec0 c
    unfold Pipeline.ΦA
    iintro ⟨Hp, -, Hr⟩
    isplitl [Hr] <;> iassumption
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  -- the three operations after the region: the arrays opened at contents `A` the write-backs may produce, the
  -- operations run over them and the bypassing buffers, the two buffers read at the end named from `A`'s facts
  case htail =>
    intro c Q'
    iintro ⟨Hk, Hb, Ha, HZ⟩
    ihave Ha' := (arraysAt_open m c) $$ Ha
    icases Ha' with ⟨%A, %hA', Ha⟩
    iapply (Pipeline.tail_seqs (pcfgs (F := F)) defs₀ Variants.none Pipeline.Prefetch.none spec0 launch0.win.arr_inj c (V0 m c) A
      [hostOps1] sfx_sub sfx_fresh sfx_keeps Q')
    isplitl [Hk]
    · iintro ⟨Ha2, Hu⟩
      iapply Hk
      isplitl [Ha2]; · iapply (arraysAt_close m c A hA'); iexact Ha2
      iexists (fun b => StableHlo.after ([hostOps1] : List (List (HloOp τ sig (Elt F)))).flatten (Pipeline.withArrays spec0 c (V0 m c) A) (Proc.devRef .tc b))
      isplitr
      · ipureintro; exact ⟨exit_v0_1 m c A hA', exit_arg1 m c A⟩
      · iexact Hu
    · isplitl [Hb]; · iexact Hb
      isplitl [Ha]; · iexact Ha
      iexact HZ
  -- the bypassing buffers read against the final state, at the second result and the second argument
  case hY =>
    intro c s'
    iintro ⟨-, HZ, HSI⟩
    icases HZ with ⟨%G, %hG, HZ⟩
    unfold Pipeline.unscopedRestP
    ihave HZ' := (pointsTo_read_all (Pipeline.restRefsP sig Pipeline.Prefetch.none spec0) (fun b => (c.tc : Thread nD τ).loc b) G s') $$ [HZ HSI]
    · isplitl [HZ] <;> iassumption
    icases HZ' with ⟨%hZ, HSI⟩
    imodintro
    isplitr
    · ipureintro
      have hnot : ∀ b : Ref sig .tc, b ∉ (Finset.univ : Finset (Fin 0)).image (Pipeline.Prefetch.none (sig := sig)).ref := fun b h => by
        obtain ⟨k, -, -⟩ := Finset.mem_image.mp h; exact k.elim0
      exact ⟨(hZ main_v0_1 (Finset.mem_sdiff.mpr ⟨Pipeline.mem_restRefs_of main_v0_1 (by decide) (by decide), hnot _⟩)).trans hG.1,
        (hZ main_arg1 (Finset.mem_sdiff.mpr ⟨Pipeline.mem_restRefs_of main_arg1 (by decide) (by decide), hnot _⟩)).trans hG.2⟩
    · iexact HSI
  -- the first result array is window 4's and the first argument window 0's: each holds what its relation allows
  case hQ =>
    intro s h c
    obtain ⟨harr, -, hq1, hq2⟩ := h c
    exact ⟨arr4_eq m c _ (harr 4), hq1, (arr_in m c 0 rfl _ (harr 0)).trans (V_main_arg0 m c), hq2⟩

end Cert.KernelIdeal.Body

end
-- ==== Proof.KI.Entry.lean ====
/-
  What the body stores, read at an index over the extended reals: the strip entry is the clamped minimum over the
  second cloud of (inner product with the pre-scaled point + that point's squared norm), plus the row's squared norm;
  a column minimum is the minimum over the tile's rows of the same sum; the update is the minimum with the row held.
-/
import proofs.«154753_g1726576856987_cont_8to1_201_24_alg».proof.Proof.KI.Data
import Idealize.ShloMosaic.PureOps.Ideal.Laws
import Idealize.ShloMosaic.Lib.Pipeline.Value
import Idealize.ShloMosaic.Lib.ValueLayout

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The body's layout, product and reduction operations, read at an index -/

/-- The zero offsets of a whole-block rectangle of rank three, as the constant function. -/
theorem off3_zero : (![0, 0, 0] : Fin 3 → ℕ) = fun _ => 0 := by
  funext a; match a with | ⟨0, _⟩ => rfl | ⟨1, _⟩ => rfl | ⟨2, _⟩ => rfl

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `<minimumf>` reduction over one axis, read over the extended reals: the fold of `min` from the accumulator's
    value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞`, the minimum reductions' initial value, is the top of the extended reals. -/
theorem ofBits_inf_f32 : (FloatOps.ofBits (F := Ideal) .f32 0x7F800000#32 : EReal) = ⊤ := by
  show Ideal.ofBits .f32 0x7F800000#32 = ⊤
  simp [Ideal.ofBits, Ideal.ieee]

/-- The minimum over the columns of a `512 × 4096` matrix, at row `r`. -/
theorem minRow_apply (src : FVec Ideal S512x4096 .f32) (h : S512x4096.Reduces [1] S512) (hφ : FKind.Formats .f32)
    (hacc : (0x7F800000#32 : BitVec 32) = FKind.minimumf.neutral .f32 hφ) (r : Fin 512) :
    multiReduction (F := Ideal) .minimumf [1] S512 src 0x7F800000#32 h hφ hacc (ix1 r)
      = (Finset.univ : Finset (Fin 4096)).inf fun q => src (ix2 r q) := by
  refine (multiReduction_minimumf_single src _ h hφ hacc (ix1 r)).trans ?_
  rw [ofBits_inf_f32]
  have hl : (src ∘ h.lift (ix1 r)) = fun q : Fin 4096 => src (ix2 r q) := funext fun q => congrArg src
    (funext fun a => Fin.ext (by match a with | ⟨0, _⟩ => rfl | ⟨1, _⟩ => rfl))
  rw [hl]; rfl

/-- The minimum over the rows of a `512 × 4096` matrix, at column `q`. -/
theorem minCol_apply (src : FVec Ideal S512x4096 .f32) (h : S512x4096.Reduces [0] S4096) (hφ : FKind.Formats .f32)
    (hacc : (0x7F800000#32 : BitVec 32) = FKind.minimumf.neutral .f32 hφ) (q : Fin 4096) :
    multiReduction (F := Ideal) .minimumf [0] S4096 src 0x7F800000#32 h hφ hacc (ix1 q)
      = (Finset.univ : Finset (Fin 512)).inf fun r => src (ix2 r q) := by
  refine (multiReduction_minimumf_single src _ h hφ hacc (ix1 q)).trans ?_
  rw [ofBits_inf_f32]
  have hl : (src ∘ h.lift (ix1 q)) = fun r : Fin 512 => src (ix2 r q) := funext fun r => congrArg src
    (funext fun a => Fin.ext (by match a with | ⟨0, _⟩ => rfl | ⟨1, _⟩ => rfl))
  rw [hl]; rfl

/-! The operand indices of the body's matrix product: rows of the left operand against rows of the right, contracted
    over the three coordinates. -/

theorem lhs_mm_0 (j : S512x4096.Idx) (k : dot_S512x3_S4096x3_S512x4096_1_1_0_0_n_n.contr.Idx) :
    (dot_S512x3_S4096x3_S512x4096_1_1_0_0_n_n.lhsIdx j k 0).val = (j 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl
theorem lhs_mm_1 (j : S512x4096.Idx) (k : dot_S512x3_S4096x3_S512x4096_1_1_0_0_n_n.contr.Idx) :
    (dot_S512x3_S4096x3_S512x4096_1_1_0_0_n_n.lhsIdx j k 1).val = (k ⟨0, by decide⟩).val :=
  dot_S512x3_S4096x3_S512x4096_1_1_0_0_n_n.lhsIdx_val_of_single rfl j k
theorem rhs_mm_0 (j : S512x4096.Idx) (k : dot_S512x3_S4096x3_S512x4096_1_1_0_0_n_n.contr.Idx) :
    (dot_S512x3_S4096x3_S512x4096_1_1_0_0_n_n.rhsIdx j k 0).val = (j 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl
theorem rhs_mm_1 (j : S512x4096.Idx) (k : dot_S512x3_S4096x3_S512x4096_1_1_0_0_n_n.contr.Idx) :
    (dot_S512x3_S4096x3_S512x4096_1_1_0_0_n_n.rhsIdx j k 1).val = (k ⟨0, by decide⟩).val :=
  dot_S512x3_S4096x3_S512x4096_1_1_0_0_n_n.rhsIdx_val_of_single rfl j k

/-- The product into the zero splat at `(r, q)`: the inner product of row `r` of the left operand and row `q` of the right. -/
theorem mm_apply (A : FVec Ideal S512x3 .f32) (B : FVec Ideal S4096x3 .f32) (r : Fin 512) (q : Fin 4096) :
    matmul (F := Ideal) dot_S512x3_S4096x3_S512x4096_1_1_0_0_n_n none A B (constant (F := Ideal) S512x4096 .f32 0x00000000#32) (ix2 r q)
      = ∑ k : Fin 3, A (ix2 r k) * B (ix2 q k) := by
  refine (Ideal.matmul_constant_zero_apply dot_S512x3_S4096x3_S512x4096_1_1_0_0_n_n none A B (ix2 r q)).trans ?_
  rw [← Equiv.sum_comp (ValueIdx.contrEquiv1 dot_S512x3_S4096x3_S512x4096_1_1_0_0_n_n 3 rfl rfl).symm]
  refine Finset.sum_congr rfl fun k _ => ?_
  have hk := ValueIdx.contrEquiv1_symm_val dot_S512x3_S4096x3_S512x4096_1_1_0_0_n_n 3 rfl rfl k
  have el : dot_S512x3_S4096x3_S512x4096_1_1_0_0_n_n.lhsIdx (ix2 r q) ((ValueIdx.contrEquiv1 dot_S512x3_S4096x3_S512x4096_1_1_0_0_n_n 3 rfl rfl).symm k) = ix2 r k := funext fun a => Fin.ext (by
    match a with
    | ⟨0, _⟩ => exact lhs_mm_0 _ _
    | ⟨1, _⟩ => exact (lhs_mm_1 _ _).trans hk)
  have er : dot_S512x3_S4096x3_S512x4096_1_1_0_0_n_n.rhsIdx (ix2 r q) ((ValueIdx.contrEquiv1 dot_S512x3_S4096x3_S512x4096_1_1_0_0_n_n 3 rfl rfl).symm k) = ix2 q k := funext fun a => Fin.ext (by
    match a with
    | ⟨0, _⟩ => exact rhs_mm_0 _ _
    | ⟨1, _⟩ => exact (rhs_mm_1 _ _).trans hk)
  rw [el, er]

/-! ## The payloads at an index -/

/-- The tile's squared norms as a vector: entry `r` of the row. -/
theorem pay1_apply (v7 : Vec Ideal S1x512 .f32) (r : Fin 512) :
    k0_pay1 (F := Ideal) v7 (ix1 r) = v7 (ix2 (0 : Fin 1) r) := by
  unfold k0_pay1
  exact shapeCast_1a_a_apply v7 _ r

/-- The tile-local sums: the inner product of row `r` and point `q`, plus the point's squared norm. -/
theorem pay2_apply (v0 : Vec Ideal S1x512x3 .f32) (v2 : Vec Ideal S1x4096x3 .f32) (v10 : Vec Ideal S1x4096 .f32)
    (r : Fin 512) (q : Fin 4096) :
    k0_pay2 (F := Ideal) v0 v2 v10 (ix2 r q)
      = (∑ k : Fin 3, v0 (ix3 (0 : Fin 1) r k) * v2 (ix3 (0 : Fin 1) q k)) + v10 (ix2 (0 : Fin 1) q) := by
  unfold k0_pay2
  refine (addf_apply _ _ _).trans ?_
  refine congrArg₂ (· + ·) ?_ ?_
  · refine (mm_apply _ _ r q).trans (Finset.sum_congr rfl fun k _ => congrArg₂ (· * ·) ?_ ?_)
    · exact shapeCast_1ab_ab_apply v0 _ r k
    · exact shapeCast_1ab_ab_apply v2 _ q k
  · refine (broadcastTo_1b_ab_apply _ _ r q).trans ?_
    refine (shapeCast_a_1a_apply _ _ (0 : Fin 1) q).trans ?_
    exact shapeCast_1a_a_apply v10 _ q

/-- The strip's entry `r`: the clamped minimum over the second cloud of the tile-local sums, plus the row's squared norm. -/
theorem pay3_apply (v0 : Vec Ideal S1x512x3 .f32) (v2 : Vec Ideal S1x4096x3 .f32) (v7 : Vec Ideal S1x512 .f32)
    (v10 : Vec Ideal S1x4096 .f32) (r : Fin 512) :
    k0_pay3 (F := Ideal) v0 v2 v7 v10 (ix2 (0 : Fin 1) r)
      = max (((Finset.univ : Finset (Fin 4096)).inf fun q =>
            (∑ k : Fin 3, v0 (ix3 (0 : Fin 1) r k) * v2 (ix3 (0 : Fin 1) q k)) + v10 (ix2 (0 : Fin 1) q))
          + v7 (ix2 (0 : Fin 1) r)) 0 := by
  unfold k0_pay3
  refine (shapeCast_a_1a_apply _ _ (0 : Fin 1) r).trans ?_
  refine (maximumf_apply _ _ _).trans ?_
  refine congrArg₂ max ?_ ?_
  · refine (addf_apply _ _ _).trans (congrArg₂ (· + ·) ?_ (pay1_apply v7 r))
    refine (minRow_apply _ _ _ _ r).trans ?_
    exact congrArg (Finset.univ : Finset (Fin 4096)).inf (funext fun q => pay2_apply v0 v2 v10 r q)
  · show Ideal.ofBits .f32 0x00000000#32 = 0
    exact Ideal.ofBits_zero_f32

/-- The column minimum at point `q`: the minimum over the tile's rows of the tile-local sum plus the row's squared norm. -/
theorem pay4_apply (v0 : Vec Ideal S1x512x3 .f32) (v2 : Vec Ideal S1x4096x3 .f32) (v7 : Vec Ideal S1x512 .f32)
    (v10 : Vec Ideal S1x4096 .f32) (q : Fin 4096) :
    k0_pay4 (F := Ideal) v0 v2 v7 v10 (ix2 (0 : Fin 1) q)
      = (Finset.univ : Finset (Fin 512)).inf fun r =>
          ((∑ k : Fin 3, v0 (ix3 (0 : Fin 1) r k) * v2 (ix3 (0 : Fin 1) q k)) + v10 (ix2 (0 : Fin 1) q))
            + v7 (ix2 (0 : Fin 1) r) := by
  unfold k0_pay4
  refine (shapeCast_a_1a_apply _ _ (0 : Fin 1) q).trans ?_
  refine (minCol_apply _ _ _ _ q).trans ?_
  refine congrArg (Finset.univ : Finset (Fin 512)).inf (funext fun r => ?_)
  refine (addf_apply _ _ _).trans (congrArg₂ (· + ·) (pay2_apply v0 v2 v10 r q) ?_)
  refine (broadcastTo_a1_ab_apply _ _ r q).trans ?_
  refine (shapeCast_a_a1_apply _ _ r (0 : Fin 1)).trans ?_
  exact pay1_apply v7 r

/-- The update: entry by entry the minimum of the row held and the column minima. -/
theorem pay5_apply (v0 : Vec Ideal S1x512x3 .f32) (v2 : Vec Ideal S1x4096x3 .f32) (v7 : Vec Ideal S1x512 .f32)
    (v10 : Vec Ideal S1x4096 .f32) (v37 : Vec Ideal S1x4096 .f32) (j : S1x4096.Idx) :
    k0_pay5 (F := Ideal) v0 v2 v7 v10 v37 j = min (v37 j) (k0_pay4 (F := Ideal) v0 v2 v7 v10 j) := by
  unfold k0_pay5
  refine (minimumf_apply _ _ _).trans ?_
  exact congrArg (fun f : S1x4096.Idx → EReal => min (f j) (k0_pay4 (F := Ideal) v0 v2 v7 v10 j)) (shapeCast_self v37 _)

/-! ## What the body stores, at an index -/

/-- The tile-local sum the kernel forms for row `r` of the tile and point `q` of the second cloud:
    the matrix product of the two blocks at `(r, q)` plus the second cloud's squared norm at `q`. -/
def e (i : grid0.Coords) (x0 : Vec Ideal S1x512x3 .f32) (x1 : Vec Ideal S1x4096x3 .f32) (x3 : Vec Ideal S4x4096 .f32)
    (r : Fin 512) (q : Fin 4096) : EReal :=
  (∑ k : Fin 3, x0 (ix3 (0 : Fin 1) r k) * x1 (ix3 (0 : Fin 1) q k)) + x3 ((Rc i).idx (ix2 (0 : Fin 1) q))

theorem strip_apply (i : grid0.Coords) (x0 : Vec Ideal S1x512x3 .f32) (x1 : Vec Ideal S1x4096x3 .f32) (x2 x3 : Vec Ideal S4x4096 .f32)
    (r : Fin 512) :
    strip (F := Ideal) i x0 x1 x2 x3 (ix2 (0 : Fin 1) r)
      = max (((Finset.univ : Finset (Fin 4096)).inf fun q => e i x0 x1 x3 r q) + x2 ((Ra i).idx (ix2 (0 : Fin 1) r))) 0 := by
  have h0 : View.ld x0 R0 = x0 := View.ld_unit_zero (S := S1x512x3) off3_zero _ x0
  have h1 : View.ld x1 R1 = x1 := View.ld_unit_zero (S := S1x4096x3) off3_zero _ x1
  unfold strip e
  rw [h0, h1]
  exact pay3_apply x0 x1 (View.ld x2 (Ra i)) (View.ld x3 (Rc i)) r

theorem colmin_apply (i : grid0.Coords) (x0 : Vec Ideal S1x512x3 .f32) (x1 : Vec Ideal S1x4096x3 .f32) (x2 x3 : Vec Ideal S4x4096 .f32)
    (q : Fin 4096) :
    colmin (F := Ideal) i x0 x1 x2 x3 (ix2 (0 : Fin 1) q)
      = (Finset.univ : Finset (Fin 512)).inf fun r => e i x0 x1 x3 r q + x2 ((Ra i).idx (ix2 (0 : Fin 1) r)) := by
  have h0 : View.ld x0 R0 = x0 := View.ld_unit_zero (S := S1x512x3) off3_zero _ x0
  have h1 : View.ld x1 R1 = x1 := View.ld_unit_zero (S := S1x4096x3) off3_zero _ x1
  unfold colmin e
  rw [h0, h1]
  exact pay4_apply x0 x1 (View.ld x2 (Ra i)) (View.ld x3 (Rc i)) q

theorem colminWith_apply (i : grid0.Coords) (x0 : Vec Ideal S1x512x3 .f32) (x1 : Vec Ideal S1x4096x3 .f32) (x2 x3 : Vec Ideal S4x4096 .f32)
    (row : Vec Ideal S1x4096 .f32) (q : Fin 4096) :
    colminWith (F := Ideal) i x0 x1 x2 x3 row (ix2 (0 : Fin 1) q)
      = min (row (ix2 (0 : Fin 1) q)) (colmin (F := Ideal) i x0 x1 x2 x3 (ix2 (0 : Fin 1) q)) := by
  unfold colminWith colmin
  exact pay5_apply _ _ _ _ row _

end Cert.KernelIdeal.Body

end
-- ==== Proof.Spec.lean ====
/-
  The Chamfer distances, as mathematics.

  Two clouds of 4096 points of R^3 per batch, four batches. The squared distance of point n of the first cloud and
  point m of the second is |a_n|^2 + |b_m|^2 - 2 <a_n, b_m>, clamped below at 0. The first result is, per point of the
  first cloud, the minimum over the second cloud; the second result is, per point of the second cloud, the minimum over
  the first. Entries are extended reals; a minimum over a finite index set is `Finset.inf`.
-/
import Idealize.ShloMosaic.PureOps.Ideal
import Idealize.ShloMosaic.Lib.ValueIdx

noncomputable section

namespace Cert.Chamfer

open Idealize.ShloMosaic Idealize.ShloMosaic.ValueIdx

/-- A cloud array [4, 4096, 3] and a result array [4, 4096], as functions of the index. -/
abbrev Cloud := (⟨3, ![4, 4096, 3]⟩ : Shape).Idx → EReal
abbrev Res := (⟨2, ![4, 4096]⟩ : Shape).Idx → EReal

/-- Every entry is a real number. -/
def AllReal (A : Cloud) : Prop := ∀ i, ∃ r : ℝ, A i = (r : EReal)

/-- The squared norm of point `n` of batch `b`. -/
def sq (A : Cloud) (b : Fin 4) (n : Fin 4096) : EReal := ∑ k : Fin 3, A (ix3 b n k) * A (ix3 b n k)
/-- The inner product of point `n` of the first cloud and point `m` of the second. -/
def dot (A B : Cloud) (b : Fin 4) (n m : Fin 4096) : EReal := ∑ k : Fin 3, A (ix3 b n k) * B (ix3 b m k)
/-- The clamped squared distance. -/
def d (A B : Cloud) (b : Fin 4) (n m : Fin 4096) : EReal := max ((sq A b n + sq B b m) - 2 * dot A B b n m) 0
/-- Per point of the first cloud, the least squared distance to the second. -/
def dist1 (A B : Cloud) : Res := fun y =>
  (Finset.univ : Finset (Fin 4096)).inf fun m => d A B ⟨(y 0).val, (y 0).isLt⟩ ⟨(y 1).val, (y 1).isLt⟩ m
/-- Per point of the second cloud, the least squared distance to the first. -/
def dist2 (A B : Cloud) : Res := fun y =>
  (Finset.univ : Finset (Fin 4096)).inf fun n => d A B ⟨(y 0).val, (y 0).isLt⟩ n ⟨(y 1).val, (y 1).isLt⟩

end Cert.Chamfer

end
-- ==== Proof.Algebra.lean ====
/-
  The laws that join the two arrangements, on the extended reals: for real vectors the inner product with a vector
  scaled by -2 is -2 times the inner product; adding a real constant commutes with a finite minimum; clamping below
  commutes with a finite minimum; a minimum over 4096 indices is the minimum over eight tiles of the minima over each
  tile's 512; a running minimum over the tiles is the minimum over all of them; and the four float literals' values.
-/
import proofs.«154753_g1726576856987_cont_8to1_201_24_alg».proof.Proof.Spec
import Idealize.ShloMosaic.PureOps.Ideal.Laws

noncomputable section

namespace Cert.Chamfer

open Idealize.ShloMosaic

/-- The float words the two programs use: 0.0, 2.0, -2.0 and +infinity. -/
theorem ofBits_zero : Ideal.ofBits .f32 0x00000000#32 = (0 : EReal) := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_inf : Ideal.ofBits .f32 0x7F800000#32 = (⊤ : EReal) := by
  simp [Ideal.ofBits, Ideal.ieee]

/-- A fold of `min` from the top over a finite set is its infimum. -/
theorem fold_min_top {ι : Type} (s : Finset ι) (f : ι → EReal) : s.fold min ⊤ f = s.inf f := rfl

/-- Adding a real constant commutes with a finite minimum. -/
theorem inf_add_real {ι : Type} (s : Finset ι) (f : ι → EReal) (c : ℝ) : s.inf f + (c : EReal) = s.inf fun i => f i + (c : EReal) := by
  classical
  -- Adding c is monotone, so it commutes with a binary minimum; the empty minimum is the top, and top + c = top.
  induction s using Finset.induction_on with
  | empty => simp [EReal.top_add_coe]
  | insert i s hi ih =>
    rw [Finset.inf_insert, Finset.inf_insert, ← ih]
    exact (min_add_add_right (f i) (s.inf f) (c : EReal)).symm

/-- Clamping below commutes with a finite minimum. -/
theorem max_inf {ι : Type} (s : Finset ι) (f : ι → EReal) (a : EReal) : max (s.inf f) a = s.inf fun i => max (f i) a := by
  classical
  -- max distributes over a binary minimum; the empty minimum is the top, and max top a = top.
  induction s using Finset.induction_on with
  | empty => simp
  | insert i s hi ih =>
    rw [Finset.inf_insert, Finset.inf_insert, ← ih]
    exact max_min_distrib_right (f i) (s.inf f) a

/-- For real vectors: the inner product with the second vector scaled by -2, plus the second's squared norm, plus the
    first's, is the sum of the squared norms less twice the inner product. -/
theorem entry_eq (a b : Fin 3 → ℝ) :
    ((∑ k, (a k : EReal) * (((-2 : ℝ) : EReal) * (b k : EReal))) + ∑ k, (b k : EReal) * (b k : EReal)) + ∑ k, (a k : EReal) * (a k : EReal)
      = ((∑ k, (a k : EReal) * (a k : EReal)) + ∑ k, (b k : EReal) * (b k : EReal)) - ((2 : ℝ) : EReal) * ∑ k, (a k : EReal) * (b k : EReal) := by
  -- Each sum has three terms, all real; the identity is then one of real polynomials.
  simp only [Fin.sum_univ_three, ← EReal.coe_mul, ← EReal.coe_add, ← EReal.coe_sub]
  congr 1
  ring

/-- A sum of three products of reals is a real. -/
theorem sum_real (a b : Fin 3 → ℝ) : (∑ k, (a k : EReal) * (b k : EReal)) = ((∑ k, a k * b k : ℝ) : EReal) := by
  simp only [Fin.sum_univ_three]
  norm_cast

/-- The minimum over 4096 indices, tile by tile. -/
theorem inf_tiles (f : Fin 4096 → EReal) :
    ((Finset.univ : Finset (Fin 8)).inf fun k => (Finset.univ : Finset (Fin 512)).inf fun r =>
        f ⟨512 * k.val + r.val, by have := k.isLt; have := r.isLt; omega⟩)
      = (Finset.univ : Finset (Fin 4096)).inf f := by
  apply le_antisymm
  · -- Index n lies in tile n / 512 at offset n % 512.
    refine Finset.le_inf fun n _ => ?_
    have hn := n.isLt
    refine (Finset.inf_le (Finset.mem_univ (⟨n.val / 512, by omega⟩ : Fin 8))).trans ?_
    refine (Finset.inf_le (Finset.mem_univ (⟨n.val % 512, by omega⟩ : Fin 512))).trans ?_
    exact le_of_eq (congrArg f (Fin.ext (by simp only []; omega)))
  · -- Every tile entry is one of the 4096 entries.
    exact Finset.le_inf fun k _ => Finset.le_inf fun r _ => Finset.inf_le (Finset.mem_univ _)

/-- A running minimum after `k` steps is the minimum over the first `k + 1` indices. -/
theorem running_min_range (g : ℕ → EReal) (acc : ℕ → EReal) (h0 : acc 0 = g 0) (hs : ∀ k, acc (k + 1) = min (acc k) (g (k + 1))) (k : ℕ) :
    acc k = (Finset.range (k + 1)).inf g := by
  induction k with
  | zero => rw [h0, Finset.range_one, Finset.inf_singleton]
  | succ k ih => rw [hs k, ih, Finset.range_add_one (n := k + 1), Finset.inf_insert, min_comm]

/-- A running minimum over the first `k + 1` of eight tiles is the minimum over them. -/
theorem running_min (g : ℕ → EReal) (acc : ℕ → EReal) (h0 : acc 0 = g 0) (hs : ∀ k, acc (k + 1) = min (acc k) (g (k + 1))) :
    acc 7 = (Finset.univ : Finset (Fin 8)).inf fun k => g k.val := by
  rw [running_min_range g acc h0 hs 7]
  apply le_antisymm
  · exact Finset.le_inf fun k _ => Finset.inf_le (Finset.mem_range.2 k.isLt)
  · exact Finset.le_inf fun n hn => Finset.inf_le (f := fun k : Fin 8 => g k.val) (Finset.mem_univ ⟨n, Finset.mem_range.1 hn⟩)

/-- The real 2, as an extended real, is the numeral 2. -/
theorem coe_two : ((2 : ℝ) : EReal) = (2 : EReal) := by norm_cast

open Idealize.ShloMosaic.ValueIdx in
/-- The squared norm of a point of a real cloud is a real. -/
theorem sq_real (A : Cloud) (hA : AllReal A) (b : Fin 4) (n : Fin 4096) : ∃ r : ℝ, sq A b n = (r : EReal) := by
  choose a ha using hA
  exact ⟨∑ k : Fin 3, a (ix3 b n k) * a (ix3 b n k), by
    unfold sq
    simp only [ha]
    exact sum_real (fun k => a (ix3 b n k)) (fun k => a (ix3 b n k))⟩

open Idealize.ShloMosaic.ValueIdx in
/-- The entry law on two real clouds, in the specification's own terms. -/
theorem entry_cloud (A B : Cloud) (hA : AllReal A) (hB : AllReal B) (b : Fin 4) (n m : Fin 4096) :
    ((∑ k : Fin 3, A (ix3 b n k) * (((-2 : ℝ) : EReal) * B (ix3 b m k))) + sq B b m) + sq A b n
      = (sq A b n + sq B b m) - 2 * dot A B b n m := by
  choose a ha using hA
  choose c hc using hB
  unfold sq dot
  simp only [ha, hc]
  rw [← coe_two]
  exact entry_eq (fun k => a (ix3 b n k)) (fun k => c (ix3 b m k))

end Cert.Chamfer

end
-- ==== Proof.KI.KerValue.lean ====
/-
  The kernel's two results are the Chamfer distances, for clouds of real numbers: the region-entry arrays are the two
  clouds' squared norms and the second cloud scaled by -2, the strip entry is then (|b|^2 - 2<a,b>) minimised over b,
  plus |a|^2, clamped — and adding a constant and clamping both commute with a minimum —; the second result's running
  minimum over the eight tiles of a batch is the minimum over all 4096 points of the first cloud.
-/
import proofs.«154753_g1726576856987_cont_8to1_201_24_alg».proof.Proof.KI.Entry
import proofs.«154753_g1726576856987_cont_8to1_201_24_alg».proof.Proof.KI.Out
import proofs.«154753_g1726576856987_cont_8to1_201_24_alg».proof.Proof.Algebra

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx Cert.Chamfer

variable {F : FTy → Type} [FloatOps F]

local notation "𝕄" => MT nD τ sig Unit (Elt F) ℕ (UR sig nD τ) ℕ

variable (m : (ℓ : Loc nD τ sig) → Buf (Elt Ideal) ℓ)

/-- The two clouds at their literal type. -/
abbrev cA (c : Dev nD) : Cloud := m ((c.tc : Thread nD τ).loc main_arg0)
abbrev cB (c : Dev nD) : Cloud := m ((c.tc : Thread nD τ).loc main_arg1)

/-- The arrays the operations before the region wrote, as the region finds them: the two clouds' squared norms
    (the sum over the last axis of the squares, from zero) and the second cloud times the constant -2. -/
theorem V1_eq (c : Dev nD) : (V m c main_call0_v1 : S4x4096.Idx → EReal) =
    Host.reduceAdd (F := Ideal) (mulf (cA m c) (cA m c)) (constant (F := Ideal) S_ .f32 0x00000000#32) reducesTo_S4x4096x3_S4x4096_d2 h_S_ := by
  dsimp only [Gen.V, Gen.V0]
  simp only [Gen.hostOps0, List.flatten_cons, List.flatten_nil, List.append_nil, List.cons_append, List.nil_append]
  after_results; rfl

theorem V3_eq (c : Dev nD) : (V m c main_call0_v3 : S4x4096.Idx → EReal) =
    Host.reduceAdd (F := Ideal) (mulf (cB m c) (cB m c)) (constant (F := Ideal) S_ .f32 0x00000000#32) reducesTo_S4x4096x3_S4x4096_d2 h_S_ := by
  dsimp only [Gen.V, Gen.V0]
  simp only [Gen.hostOps0, List.flatten_cons, List.flatten_nil, List.append_nil, List.cons_append, List.nil_append]
  after_results; rfl

theorem V5_eq (c : Dev nD) : (V m c main_call0_v5 : S4x4096x3.Idx → EReal) =
    mulf (broadcastInDim S4x4096x3 ![] bcast_S_S4x4096x3 (constant (F := Ideal) S_ .f32 0xC0000000#32)) (cB m c) := by
  dsimp only [Gen.V, Gen.V0]
  simp only [Gen.hostOps0, List.flatten_cons, List.flatten_nil, List.append_nil, List.cons_append, List.nil_append]
  after_results; rfl

/-- The host's sum of squares over the last axis, read at an index: the squared norm. -/
theorem sumsq_apply (X : Cloud) (b : Fin 4) (n : Fin 4096) :
    Host.reduceAdd (F := Ideal) (mulf X X) (constant (F := Ideal) S_ .f32 0x00000000#32) reducesTo_S4x4096x3_S4x4096_d2 h_S_ (ix2 b n)
      = Chamfer.sq X b n := by
  simp only [Host.reduceAdd, Ideal.hostReduceAdd_def]
  rw [Ideal.hostReduceAdd_single reducesTo_S4x4096x3_S4x4096_d2 (by decide)]
  rw [constant_apply, ofBits_zero, zero_add]
  unfold Chamfer.sq
  refine Finset.sum_congr rfl fun k _ => ?_
  rw [mulf_apply]
  have e : (Shape.Reduces.lift (by decide : S4x4096x3.Reduces [2] S4x4096) (ix2 b n) k) = ix3 b n k :=
    funext fun a => Fin.ext (by match a with | ⟨0, _⟩ => rfl | ⟨1, _⟩ => rfl | ⟨2, _⟩ => rfl)
  rw [e]; rfl

/-- The second cloud times the broadcast constant -2, read at an index. -/
theorem scaled_apply (X : Cloud) (j : S4x4096x3.Idx) :
    mulf (broadcastInDim S4x4096x3 ![] bcast_S_S4x4096x3 (constant (F := Ideal) S_ .f32 0xC0000000#32)) X j
      = ((-2 : ℝ) : EReal) * X j := by
  rw [mulf_apply, broadcastInDim_apply _ bcast_S_S4x4096x3 _ j (fun a => a.elim0) (fun a => a.elim0), constant_apply, ofBits_neg_two]

/-- The windows' block indices over the grid: batch and tile for the first cloud, batch for the second, and the two
    arrays of squared norms whole. -/
theorem idx_w0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem idx_w1 : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)
theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The tile of the first cloud at a point: rows 512 k + r of batch b. -/
theorem x0_apply (c : Dev nD) (t : Fin cfg0.N) (r : Fin 512) (k : Fin 3) (b : Fin 4) (n : Fin 4096)
    (hb : b.val = t.val / 8) (hn : n.val = 512 * (t.val % 8) + r.val) :
    x0 m c t (ix3 (0 : Fin 1) r k) = cA m c (ix3 b n k) := by
  obtain ⟨e0, e1, e2⟩ := idx_w0 t
  show (V m c main_arg0 : S4x4096x3.Idx → EReal) (((cfg0.win 0).blk t).view.emb (ix3 (0 : Fin 1) r k)) = _
  rw [show (V m c main_arg0 : S4x4096x3.Idx → EReal) = cA m c from Gen.V_main_arg0 m c]
  refine congrArg (cA m c) (funext fun a => Fin.ext ?_)
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 3 + 1 * k.val = k.val; omega

/-- The two arrays of squared norms and the scaled second cloud, as the region finds them, at their literal types. -/
abbrev nA (c : Dev nD) : Res := V m c main_call0_v1
abbrev nB (c : Dev nD) : Res := V m c main_call0_v3
abbrev sB (c : Dev nD) : Cloud := V m c main_call0_v5

theorem nA_apply (c : Dev nD) (b : Fin 4) (n : Fin 4096) : nA m c (ix2 b n) = Chamfer.sq (cA m c) b n := by
  show (V m c main_call0_v1 : S4x4096.Idx → EReal) (ix2 b n) = _
  rw [V1_eq, sumsq_apply]
theorem nB_apply (c : Dev nD) (b : Fin 4) (n : Fin 4096) : nB m c (ix2 b n) = Chamfer.sq (cB m c) b n := by
  show (V m c main_call0_v3 : S4x4096.Idx → EReal) (ix2 b n) = _
  rw [V3_eq, sumsq_apply]
theorem sB_apply (c : Dev nD) (j : S4x4096x3.Idx) : sB m c j = ((-2 : ℝ) : EReal) * cB m c j := by
  show (V m c main_call0_v5 : S4x4096x3.Idx → EReal) j = _
  rw [V5_eq, scaled_apply]

/-- The second cloud's block at a point: batch b of the scaled cloud, whole. -/
theorem x1_apply (c : Dev nD) (t : Fin cfg0.N) (q : Fin 4096) (k : Fin 3) (b : Fin 4) (hb : b.val = t.val / 8) :
    x1 m c t (ix3 (0 : Fin 1) q k) = ((-2 : ℝ) : EReal) * cB m c (ix3 b q k) := by
  obtain ⟨e0, e1, e2⟩ := idx_w1 t
  show sB m c (((cfg0.win 1).blk t).view.emb (ix3 (0 : Fin 1) q k)) = _
  refine (congrArg (sB m c) (funext fun a => Fin.ext ?_)).trans (sB_apply m c (ix3 b q k))
  match a with
  | ⟨0, _⟩ => show win0_1.index t (0 : Fin 3) * 1 + 1 * 0 = b.val; omega
  | ⟨1, _⟩ => show win0_1.index t (1 : Fin 3) * 4096 + 1 * q.val = q.val; omega
  | ⟨2, _⟩ => show win0_1.index t (2 : Fin 3) * 3 + 1 * k.val = k.val; omega

/-- The first cloud's squared norms where the body reads them: row b, column 512 k + r. -/
theorem x2_apply (c : Dev nD) (t : Fin cfg0.N) (r : Fin 512) (b : Fin 4) (n : Fin 4096)
    (hb : b.val = t.val / 8) (hn : n.val = 512 * (t.val % 8) + r.val) :
    x2 m c t ((Ra (grid0.coords t)).idx (ix2 (0 : Fin 1) r)) = Chamfer.sq (cA m c) b n := by
  obtain ⟨e0, e1⟩ := idx_w2 t
  obtain ⟨c0, c1⟩ := coords_val t
  have ho := Gen.k0_off1_eq (grid0.coords t)
  have o0 : k0_off1 (grid0.coords t) 0 = ((grid0.coords t) 0).val := congrFun ho 0
  have o1 : k0_off1 (grid0.coords t) 1 = 512 * ((grid0.coords t) 1).val := congrFun ho 1
  show nA m c (((cfg0.win 2).blk t).view.emb ((Ra (grid0.coords t)).idx (ix2 (0 : Fin 1) r))) = _
  refine (congrArg (nA m c) (funext fun a => Fin.ext ?_)).trans (nA_apply m c b n)
  match a with
  | ⟨0, _⟩ => show win0_2.index t (0 : Fin 2) * 4 + 1 * (k0_off1 (grid0.coords t) 0 + 1 * 0) = b.val; omega
  | ⟨1, _⟩ => show win0_2.index t (1 : Fin 2) * 4096 + 1 * (k0_off1 (grid0.coords t) 1 + 1 * r.val) = n.val; omega

/-- The second cloud's squared norms where the body reads them: row b, column q. -/
theorem x3_apply (c : Dev nD) (t : Fin cfg0.N) (q : Fin 4096) (b : Fin 4) (hb : b.val = t.val / 8) :
    x3 m c t ((Rc (grid0.coords t)).idx (ix2 (0 : Fin 1) q)) = Chamfer.sq (cB m c) b q := by
  obtain ⟨e0, e1⟩ := idx_w3 t
  obtain ⟨c0, c1⟩ := coords_val t
  have ho := Gen.k0_off2_eq (grid0.coords t)
  have o0 : k0_off2 (grid0.coords t) 0 = ((grid0.coords t) 0).val := congrFun ho 0
  have o1 : k0_off2 (grid0.coords t) 1 = 0 := congrFun ho 1
  show nB m c (((cfg0.win 3).blk t).view.emb ((Rc (grid0.coords t)).idx (ix2 (0 : Fin 1) q))) = _
  refine (congrArg (nB m c) (funext fun a => Fin.ext ?_)).trans (nB_apply m c b q)
  match a with
  | ⟨0, _⟩ => show win0_3.index t (0 : Fin 2) * 4 + 1 * (k0_off2 (grid0.coords t) 0 + 1 * 0) = b.val; omega
  | ⟨1, _⟩ => show win0_3.index t (1 : Fin 2) * 4096 + 1 * (k0_off2 (grid0.coords t) 1 + 1 * q.val) = q.val; omega

/-- The sum the body forms for row r of the tile and point q of the second cloud, plus the row's squared norm, is the
    unclamped squared distance of point 512 k + r of the first cloud and point q of the second. -/
theorem term_eq (c : Dev nD) (hA : AllReal (cA m c)) (hB : AllReal (cB m c)) (t : Fin cfg0.N) (r : Fin 512) (q : Fin 4096)
    (b : Fin 4) (n : Fin 4096) (hb : b.val = t.val / 8) (hn : n.val = 512 * (t.val % 8) + r.val) :
    e (grid0.coords t) (x0 m c t) (x1 m c t) (x3 m c t) r q + x2 m c t ((Ra (grid0.coords t)).idx (ix2 (0 : Fin 1) r))
      = (Chamfer.sq (cA m c) b n + Chamfer.sq (cB m c) b q) - 2 * dot (cA m c) (cB m c) b n q := by
  unfold e
  rw [x2_apply m c t r b n hb hn, x3_apply m c t q b hb]
  simp only [x0_apply m c t r _ b n hb hn, x1_apply m c t q _ b hb]
  exact entry_cloud (cA m c) (cB m c) hA hB b n q

/-- The strip a point stores, at row r of its tile: per point n = 512 k + r of the first cloud, the least clamped
    squared distance to the second cloud. Adding the row's (real) squared norm and clamping both pass under the minimum. -/
theorem strip_point (c : Dev nD) (hA : AllReal (cA m c)) (hB : AllReal (cB m c)) (t : Fin cfg0.N) (r : Fin 512)
    (b : Fin 4) (n : Fin 4096) (hb : b.val = t.val / 8) (hn : n.val = 512 * (t.val % 8) + r.val) :
    strip (F := Ideal) (grid0.coords t) (x0 m c t) (x1 m c t) (x2 m c t) (x3 m c t) (ix2 (0 : Fin 1) r)
      = (Finset.univ : Finset (Fin 4096)).inf fun q => d (cA m c) (cB m c) b n q := by
  rw [strip_apply (grid0.coords t) (x0 m c t) (x1 m c t) (x2 m c t) (x3 m c t) r]
  obtain ⟨s, hs⟩ := sq_real (cA m c) hA b n
  have hx : x2 m c t ((Ra (grid0.coords t)).idx (ix2 (0 : Fin 1) r)) = (s : EReal) := (x2_apply m c t r b n hb hn).trans hs
  rw [hx, inf_add_real, max_inf]
  refine Finset.inf_congr rfl fun q _ => ?_
  rw [← hx, term_eq m c hA hB t r q b n hb hn]
  rfl

theorem E4_eq (c : Dev nD) (h0 : AllReal (m ((c.tc : Thread nD τ).loc main_arg0))) (h1 : AllReal (m ((c.tc : Thread nD τ).loc main_arg1))) :
    E4 (F := Ideal) m c = dist1 (m ((c.tc : Thread nD τ).loc main_arg0)) (m ((c.tc : Thread nD τ).loc main_arg1)) := by
  funext y
  have hy0 : (y 0).val < 4 := (y 0).isLt
  have hy1 : (y 1).val < 4096 := (y 1).isLt
  exact strip_point m c h0 h1 (pt (y 0).val ((y 1).val / 512) hy0 (by omega)) ⟨(y 1).val % 512, Nat.mod_lt _ (by decide)⟩
    ⟨(y 0).val, hy0⟩ ⟨(y 1).val, hy1⟩
    (by show (y 0).val = (8 * (y 0).val + (y 1).val / 512) / 8; omega)
    (by show (y 1).val = 512 * ((8 * (y 0).val + (y 1).val / 512) % 8) + (y 1).val % 512; omega)

/-- The unclamped squared distance of point n of the first cloud and point q of the second. -/
def udist (A B : Cloud) (b : Fin 4) (n q : Fin 4096) : EReal := (Chamfer.sq A b n + Chamfer.sq B b q) - 2 * dot A B b n q

/-- The column minima a point forms, at point q of the second cloud: the minimum over the tile's 512 rows of the
    unclamped squared distances. -/
theorem colmin_point (c : Dev nD) (hA : AllReal (cA m c)) (hB : AllReal (cB m c)) (t : Fin cfg0.N) (q : Fin 4096)
    (b : Fin 4) (k : ℕ) (hk8 : k < 8) (hb : b.val = t.val / 8) (hk : k = t.val % 8) :
    colmin (F := Ideal) (grid0.coords t) (x0 m c t) (x1 m c t) (x2 m c t) (x3 m c t) (ix2 (0 : Fin 1) q)
      = (Finset.univ : Finset (Fin 512)).inf fun r =>
          udist (cA m c) (cB m c) b ⟨512 * k + r.val, by have := r.isLt; omega⟩ q := by
  rw [colmin_apply (grid0.coords t) (x0 m c t) (x1 m c t) (x2 m c t) (x3 m c t) q]
  refine Finset.inf_congr rfl fun r _ => ?_
  exact term_eq m c hA hB t r q b ⟨512 * k + r.val, by have := r.isLt; omega⟩ hb
    (by show 512 * k + r.val = 512 * (t.val % 8) + r.val; rw [hk])

/-- Tile k's minimum over its 512 rows of the unclamped squared distances to point q (the top beyond the eighth tile). -/
def tileMin (A B : Cloud) (b : Fin 4) (q : Fin 4096) (k : ℕ) : EReal :=
  if h : k < 8 then (Finset.univ : Finset (Fin 512)).inf fun r =>
    udist A B b ⟨512 * k + r.val, by have := r.isLt; omega⟩ q else ⊤

/-- The running minimum of the tiles' minima. -/
def runMin (A B : Cloud) (b : Fin 4) (q : Fin 4096) : ℕ → EReal
  | 0 => tileMin A B b q 0
  | k + 1 => min (runMin A B b q k) (tileMin A B b q (k + 1))

/-- Row b of the second result after the batch's first tile, and after a later one. -/
theorem acc5_zero (c : Dev nD) (b : ℕ) (hb : b < 4) (hk : 0 < 8) :
    acc5 (F := Ideal) m c b hb 0 hk = colmin (F := Ideal) (grid0.coords (pt b 0 hb hk)) (x0 m c (pt b 0 hb hk)) (x1 m c (pt b 0 hb hk))
      (x2 m c (pt b 0 hb hk)) (x3 m c (pt b 0 hb hk)) := by
  rw [acc5]
theorem acc5_succ (c : Dev nD) (b : ℕ) (hb : b < 4) (k : ℕ) (hk : k + 1 < 8) :
    acc5 (F := Ideal) m c b hb (k + 1) hk = colminWith (F := Ideal) (grid0.coords (pt b (k + 1) hb hk)) (x0 m c (pt b (k + 1) hb hk)) (x1 m c (pt b (k + 1) hb hk))
      (x2 m c (pt b (k + 1) hb hk)) (x3 m c (pt b (k + 1) hb hk)) (acc5 (F := Ideal) m c b hb k (by omega)) := by
  rw [acc5]

/-- Row b of the second result after tile k is the running minimum of the tiles' minima up to k. -/
theorem acc5_eq (c : Dev nD) (hA : AllReal (cA m c)) (hB : AllReal (cB m c)) (b : Fin 4) (q : Fin 4096) (k : ℕ) :
    ∀ hk : k < 8, acc5 (F := Ideal) m c b.val b.isLt k hk (ix2 (0 : Fin 1) q) = runMin (cA m c) (cB m c) b q k := by
  induction k with
  | zero =>
    intro hk
    rw [acc5_zero m c b.val b.isLt hk,
      colmin_point m c hA hB (pt b.val 0 b.isLt hk) q b 0 hk (by show b.val = (8 * b.val + 0) / 8; omega)
        (by show 0 = (8 * b.val + 0) % 8; omega)]
    unfold runMin tileMin; rw [dif_pos hk]
  | succ k ih =>
    intro hk
    rw [acc5_succ m c b.val b.isLt k hk,
      colminWith_apply (grid0.coords (pt b.val (k + 1) b.isLt hk)) (x0 m c (pt b.val (k + 1) b.isLt hk)) (x1 m c (pt b.val (k + 1) b.isLt hk))
        (x2 m c (pt b.val (k + 1) b.isLt hk)) (x3 m c (pt b.val (k + 1) b.isLt hk)) (acc5 (F := Ideal) m c b.val b.isLt k (by omega)) q,
      ih (by omega),
      colmin_point m c hA hB (pt b.val (k + 1) b.isLt hk) q b (k + 1) hk (by show b.val = (8 * b.val + (k + 1)) / 8; omega)
        (by show k + 1 = (8 * b.val + (k + 1)) % 8; omega)]
    conv_rhs => unfold runMin
    unfold tileMin; rw [dif_pos hk]

/-- Row b of the region's second result, at point q of the second cloud: the minimum over all 4096 points of the
    first cloud of the unclamped squared distances. -/
theorem E5_apply (c : Dev nD) (hA : AllReal (cA m c)) (hB : AllReal (cB m c)) (b : Fin 4) (q : Fin 4096) :
    acc5 (F := Ideal) m c b.val b.isLt 7 (by decide) (ix2 (0 : Fin 1) q)
      = (Finset.univ : Finset (Fin 4096)).inf fun n => udist (cA m c) (cB m c) b n q := by
  rw [acc5_eq m c hA hB b q 7 (by decide),
    running_min (tileMin (cA m c) (cB m c) b q) (runMin (cA m c) (cB m c) b q) rfl (fun k => rfl),
    ← inf_tiles (fun n => udist (cA m c) (cB m c) b n q)]
  refine Finset.inf_congr rfl fun k _ => ?_
  unfold tileMin; rw [dif_pos k.isLt]

/-- The second result as returned: the region's second result clamped below at zero. -/
theorem out1_apply (c : Dev nD) (y : S4x4096.Idx) : out1 (F := Ideal) m c y = max (E5 (F := Ideal) m c y) 0 := by
  unfold out1
  rw [maximumf_apply, broadcastInDim_apply _ bcast_S_S4x4096 _ y (fun a => a.elim0) (fun a => a.elim0), constant_apply, ofBits_zero]

theorem out1_eq (c : Dev nD) (h0 : AllReal (m ((c.tc : Thread nD τ).loc main_arg0))) (h1 : AllReal (m ((c.tc : Thread nD τ).loc main_arg1))) :
    out1 (F := Ideal) m c = dist2 (m ((c.tc : Thread nD τ).loc main_arg0)) (m ((c.tc : Thread nD τ).loc main_arg1)) := by
  funext y
  have hy0 : (y 0).val < 4 := (y 0).isLt
  have hy1 : (y 1).val < 4096 := (y 1).isLt
  rw [out1_apply]
  have e5 : E5 (F := Ideal) m c y = (Finset.univ : Finset (Fin 4096)).inf fun n =>
      udist (cA m c) (cB m c) ⟨(y 0).val, hy0⟩ n ⟨(y 1).val, hy1⟩ :=
    E5_apply m c h0 h1 ⟨(y 0).val, hy0⟩ ⟨(y 1).val, hy1⟩
  rw [e5, max_inf]
  rfl

end Cert.KernelIdeal.Body

end
-- ==== Proof.RefValue.lean ====
/-
  The reference computes, per batch, the matrix of clamped squared distances between the two point clouds and takes
  its row minima and its column minima: its two results are the Chamfer distances of the specification.
-/
import proofs.«154753_g1726576856987_cont_8to1_201_24_alg».proof.Proof.Gen.ReferenceIdeal.Run
import proofs.«154753_g1726576856987_cont_8to1_201_24_alg».proof.Proof.Gen.ReferenceIdeal.Read
import proofs.«154753_g1726576856987_cont_8to1_201_24_alg».proof.Proof.Algebra

noncomputable section

namespace Cert.ReferenceIdeal.RefValue

open Cert.ReferenceIdeal Cert.ReferenceIdeal.Gen Cert.ReferenceIdeal.Read Idealize.ShloMosaic Idealize.ShloMosaic.ValueIdx Cert.Chamfer

/-- The real number two, as an extended real, is the extended real two. -/
theorem coe_two : ((2 : ℝ) : EReal) = (2 : EReal) := by
  norm_cast

/-- The index of the first cloud's squared norm at entry (b, n, m) of the distance matrix: point n of batch b. -/
theorem idx_sqA (b : Fin 4) (n m : Fin 4096) (k : Fin 3) :
    idx_main_v1 (idx_main_v6 (idx_main_v8 (ix3 b n m))) k = ix3 b n k :=
  funext fun a => Fin.ext (by match a with | ⟨0, _⟩ => rfl | ⟨1, _⟩ => rfl | ⟨2, _⟩ => rfl)

/-- The index of the second cloud's squared norm at entry (b, n, m): point m of batch b. -/
theorem idx_sqB (b : Fin 4) (n m : Fin 4096) (k : Fin 3) :
    idx_main_v3 (idx_main_v7 (idx_main_v9 (ix3 b n m))) k = ix3 b m k :=
  funext fun a => Fin.ext (by match a with | ⟨0, _⟩ => rfl | ⟨1, _⟩ => rfl | ⟨2, _⟩ => rfl)

/-- The inner product's left factor at entry (b, n, m): coordinate k of point n. -/
theorem idx_dotL (b : Fin 4) (n m : Fin 4096) (k : Fin 3) :
    lidx_main_v5 (ix3 b n m) k = ix3 b n k :=
  funext fun a => Fin.ext (by match a with | ⟨0, _⟩ => rfl | ⟨1, _⟩ => rfl | ⟨2, _⟩ => rfl)

/-- The inner product's right factor at entry (b, n, m), read through the transposition: coordinate k of point m. -/
theorem idx_dotR (b : Fin 4) (n m : Fin 4096) (k : Fin 3) :
    idx_main_v4 (ridx_main_v5 (ix3 b n m) k) = ix3 b m k :=
  funext fun a => Fin.ext (by match a with | ⟨0, _⟩ => rfl | ⟨1, _⟩ => rfl | ⟨2, _⟩ => rfl)

/-- Entry (b, n, m) of the clamped distance matrix is the specification's clamped squared distance. -/
theorem v15_entry (A B : (⟨S4x4096x3, .f32⟩ : BufTy).Contents (Elt Ideal)) (b : Fin 4) (n m : Fin 4096) :
    val_main_v15 (F := Ideal) A B (ix3 b n m) = d A B b n m := by
  simp only [val_main_v15_apply, val_main_v13_apply, val_main_v10_apply, val_main_v8_apply, val_main_v6_apply,
    val_main_v1_apply, val_main_v0_apply, val_main_v9_apply, val_main_v7_apply, val_main_v3_apply, val_main_v2_apply,
    val_main_v12_apply, val_main_v11_apply, val_main_v5_apply, val_main_v4_apply, val_main_v14_apply,
    val_main_cst_apply, val_main_cst_0_apply, val_main_cst_1_apply, val_main_cst_2_apply,
    idx_sqA, idx_sqB, idx_dotL, idx_dotR,
    Ideal.maximumf_def, Ideal.subf_def, Ideal.addf_def, Ideal.mulf_def, Ideal.ofBits_def,
    ofBits_zero, ofBits_two, zero_add, coe_two]
  rfl

/-- Inserting coordinate m on the last axis of the result index (b, n) gives entry (b, n, m) of the matrix. -/
theorem lift_last (h : S4x4096x4096.Reduces [2] S4x4096) (b : Fin 4) (n m : Fin 4096) :
    h.lift (ix2 b n) m = ix3 b n m :=
  funext fun a => Fin.ext (by match a with | ⟨0, _⟩ => rfl | ⟨1, _⟩ => rfl | ⟨2, _⟩ => rfl)

/-- Inserting coordinate n on the middle axis of the result index (b, m) gives entry (b, n, m) of the matrix. -/
theorem lift_mid (h : S4x4096x4096.Reduces [1] S4x4096) (b : Fin 4) (n m : Fin 4096) :
    h.lift (ix2 b m) n = ix3 b n m :=
  funext fun a => Fin.ext (by match a with | ⟨0, _⟩ => rfl | ⟨1, _⟩ => rfl | ⟨2, _⟩ => rfl)

theorem v16_eq (A B : (⟨S4x4096x3, .f32⟩ : BufTy).Contents (Elt Ideal)) : val_main_v16 (F := Ideal) A B = dist1 A B := by
  funext y
  obtain ⟨b, n, rfl⟩ : ∃ (b : Fin 4) (n : Fin 4096), y = ix2 b n := ⟨y 0, y 1, eq_ix2 y⟩
  unfold val_main_v16
  rw [Host.reduce_eq_fold_single FloatOps.minimumf _ _ reducesTo_S4x4096x4096_S4x4096_d2
    (by decide : S4x4096x4096.Reduces [2] S4x4096) h_S_]
  show Finset.fold min (Ideal.ofBits .f32 0x7F800000#32)
      (fun m : Fin 4096 => val_main_v15 (F := Ideal) A B ((by decide : S4x4096x4096.Reduces [2] S4x4096).lift (ix2 b n) m))
      (Finset.univ : Finset (Fin 4096))
    = (Finset.univ : Finset (Fin 4096)).inf fun m => d A B b n m
  rw [ofBits_inf, fold_min_top]
  exact Finset.inf_congr rfl fun m _ => by rw [lift_last, v15_entry]

theorem v17_eq (A B : (⟨S4x4096x3, .f32⟩ : BufTy).Contents (Elt Ideal)) : val_main_v17 (F := Ideal) A B = dist2 A B := by
  funext y
  obtain ⟨b, m, rfl⟩ : ∃ (b : Fin 4) (m : Fin 4096), y = ix2 b m := ⟨y 0, y 1, eq_ix2 y⟩
  unfold val_main_v17
  rw [Host.reduce_eq_fold_single FloatOps.minimumf _ _ reducesTo_S4x4096x4096_S4x4096_d1
    (by decide : S4x4096x4096.Reduces [1] S4x4096) h_S_]
  show Finset.fold min (Ideal.ofBits .f32 0x7F800000#32)
      (fun n : Fin 4096 => val_main_v15 (F := Ideal) A B ((by decide : S4x4096x4096.Reduces [1] S4x4096).lift (ix2 b m) n))
      (Finset.univ : Finset (Fin 4096))
    = (Finset.univ : Finset (Fin 4096)).inf fun n => d A B b n m
  rw [ofBits_inf, fold_min_top]
  exact Finset.inf_congr rfl fun n _ => by rw [lift_mid, v15_entry]

end Cert.ReferenceIdeal.RefValue

end
-- ==== Proof.Finite.lean ====
/-
  Under the precondition every entry of both clouds is a real number: the precondition is the conjunction, over each
  input, of "every entry's absolute value is below +infinity".
-/
import proofs.«154753_g1726576856987_cont_8to1_201_24_alg».proof.Defs
import proofs.«154753_g1726576856987_cont_8to1_201_24_alg».proof.Proof.Gen.Pre_finite_inputs
import proofs.«154753_g1726576856987_cont_8to1_201_24_alg».proof.Proof.Spec
import Idealize.ShloMosaic.Lib.ReduceAll

noncomputable section

namespace Cert.Chamfer

open Idealize.ShloMosaic

/-- The pattern 0x7F800000 (sign 0, exponent all ones, fraction 0) denotes +infinity. -/
theorem Finite.inf_pattern : Ideal.ofBits .f32 0x7F800000#32 = (⊤ : EReal) := by
  simp [Ideal.ofBits, Ideal.ieee]

/-- An extended real whose absolute value max x (-x) is strictly below +infinity is a real: the absolute value of
    either infinity is +infinity, which is not below itself. -/
theorem Finite.real_of_abs_lt_inf (x : EReal)
    (h : Ideal.cmp .olt (max x (-x)) (Ideal.ofBits .f32 0x7F800000#32) = 1#1) : ∃ r : ℝ, x = (r : EReal) := by
  rw [Finite.inf_pattern] at h
  induction x using EReal.rec with
  | bot => simp [Ideal.cmp] at h
  | coe r => exact ⟨r, rfl⟩
  | top => simp [Ideal.cmp] at h

/-- One input's conjunct: if the conjunction over all entries of "the absolute value is below +infinity" is 1, every
    entry is real. The conjunction runs over all three axes, so its result has a single index and every entry of the
    array is one of its conjuncts. -/
theorem Finite.allReal_of_all [hP : Cert.Pre_finite_inputs.Facts] (A : Cloud)
    (h : Host.reduce IntOp.andi
          (cmpf .olt (Host.absf (F := Ideal) (φ := .f32) A)
            (broadcastInDim Cert.Pre_finite_inputs.S4x4096x3 ![] hP.bcast_S_S4x4096x3
              (constant (F := Ideal) Cert.Pre_finite_inputs.S_ .f32 0x7F800000#32)))
          (constantI Cert.Pre_finite_inputs.S_ 1 1#1) hP.reducesTo_S4x4096x3_S_d0_1_2 hP.h_S_ ValueIdx.ix0 = 1#1) :
    AllReal A := by
  haveI : Subsingleton Cert.Pre_finite_inputs.S_.Idx := ⟨fun a b => funext fun d => d.elim0⟩
  intro i
  exact Finite.real_of_abs_lt_inf (A i) (Host.reduce_andi_all _ _ _ _ _ h i)

/-- The precondition's function is all ones only if both clouds are real. -/
theorem real_of_pre [hP : Cert.Pre_finite_inputs.Facts] (A B : Cloud)
    (h : Cert.Pre_finite_inputs.fn (F := Ideal) A B = (fun _ => 1#1)) : AllReal A ∧ AllReal B := by
  have h0 := congrFun h ValueIdx.ix0
  dsimp only [Cert.Pre_finite_inputs.fn] at h0
  obtain ⟨hA, hB⟩ := IntOp.andi_eq_one.1 h0
  exact ⟨Finite.allReal_of_all A hA, Finite.allReal_of_all B hB⟩

end Cert.Chamfer

end
-- ==== Proof.lean ====
/-
  The certificate of the fused Chamfer-distance kernel against its jnp reference.

  The kernel tiles the first cloud into eight tiles of 512 points per batch. Per tile it forms, on the matrix unit, the
  inner products with the second cloud pre-scaled by -2, adds the second cloud's squared norms, and takes row minima
  (the first result, after adding the rows' squared norms and clamping at 0) and column minima of the same matrix with
  the rows' squared norms added (the second result, as a running minimum over the tiles, clamped at 0 by the host).
  The reference forms the full clamped distance matrix |a|^2 + |b|^2 - 2<a,b> and takes its row and column minima.
  Over real inputs the two agree: -2 comes out of the inner product, and adding a constant and clamping below both
  commute with a minimum. The frames: the kernel's region runs under the pipeline library's relational proof data
  (both results are resident windows written part by part), the reference is its generated run.
-/
import proofs.«154753_g1726576856987_cont_8to1_201_24_alg».proof.Defs
import proofs.«154753_g1726576856987_cont_8to1_201_24_alg».proof.Proof.Gen.Kernel
import proofs.«154753_g1726576856987_cont_8to1_201_24_alg».proof.Proof.Gen.KernelIdeal
import proofs.«154753_g1726576856987_cont_8to1_201_24_alg».proof.Proof.Gen.ReferenceIdeal
import proofs.«154753_g1726576856987_cont_8to1_201_24_alg».proof.Proof.Gen.Pre_finite_inputs
import proofs.«154753_g1726576856987_cont_8to1_201_24_alg».proof.Proof.K.FrameRun
import proofs.«154753_g1726576856987_cont_8to1_201_24_alg».proof.Proof.KI.FrameRun
import proofs.«154753_g1726576856987_cont_8to1_201_24_alg».proof.Proof.KI.ValueRun
import proofs.«154753_g1726576856987_cont_8to1_201_24_alg».proof.Proof.KI.KerValue
import proofs.«154753_g1726576856987_cont_8to1_201_24_alg».proof.Proof.RefValue
import proofs.«154753_g1726576856987_cont_8to1_201_24_alg».proof.Proof.Finite
import Idealize.ShloMosaic.Adequacy
import Idealize.ShloMosaic.Init

noncomputable section

namespace Cert.Proof

open Idealize.ShloMosaic Idealize.SL.Sem

/-- The word-level kernel terminates, faults nowhere, and leaves both clouds as they were. -/
theorem frame_k : Cert.frame_Kernel := fun m ρ _ => Cert.Kernel.Body.frame_run m ρ

/-- So does the kernel read over the extended reals. -/
theorem frame_ki : Cert.frame_KernelIdeal := fun m ρ _ => Cert.KernelIdeal.Body.frame_run m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over real clouds both programs end at the Chamfer distances. -/
theorem algebraic : Cert.algebraic_KernelIdeal_ReferenceIdeal := by
  intro m ρ m' ρ' hpre hagree
  refine ⟨fun c => Cert.KernelIdeal.Body.E4 (F := Ideal) m c, fun c => Cert.KernelIdeal.Body.out1 (F := Ideal) m c,
    Cert.KernelIdeal.Body.value_run m ρ, ?_⟩
  refine (θ_run Cert.ReferenceIdeal.defs _ _).mono (fun _ h c => ?_) (Cert.ReferenceIdeal.Value.run (F := Ideal) m' ρ')
  obtain ⟨hA, hB⟩ := Cert.Chamfer.real_of_pre _ _ (hpre c)
  refine ⟨?_, ?_, (h c).2.2.1, (h c).2.2.2⟩
  · rw [(h c).1, Cert.ReferenceIdeal.Read.val_main_v16_eq, Cert.ReferenceIdeal.RefValue.v16_eq, (hagree c).1, (hagree c).2]
    exact (Cert.KernelIdeal.Body.E4_eq m c hA hB).symm
  · rw [(h c).2.1, Cert.ReferenceIdeal.Read.val_main_v17_eq, Cert.ReferenceIdeal.RefValue.v17_eq, (hagree c).1, (hagree c).2]
    exact (Cert.KernelIdeal.Body.out1_eq m c hA hB).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
